-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S131072x64 : Shape := ⟨2, ![131072, 64]⟩
abbrev S262144x1 : Shape := ⟨2, ![262144, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S4096 : S_.BroadcastsInDim S4096 (![] : Fin 0 → Fin S4096.rank)
  reducesTo_S4096_S_d0 : S4096.ReducesTo [0] S_
  bcast_S_S131072x64 : S_.BroadcastsInDim S131072x64 (![] : Fin 0 → Fin S131072x64.rank)
  reducesTo_S131072x64_S_d0_1 : S131072x64.ReducesTo [0, 1] S_

variable [Facts]

def fn_part1 {F : FTy → Type} [FloatOps F] (main_arg1 : IVec S131072x64 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_c_6 : IVec S_ 32 := constantI S_ 32 0#32
  let main_v19 : IVec S131072x64 32 := broadcastInDim S131072x64 ![] bcast_S_S131072x64 main_c_6
  let main_v20 : IVec S131072x64 1 := cmpi .sge main_arg1 main_v19
  let main_c_7 : IVec S_ 32 := constantI S_ 32 255#32
  let main_v21 : IVec S131072x64 32 := broadcastInDim S131072x64 ![] bcast_S_S131072x64 main_c_7
  let main_v22 : IVec S131072x64 1 := cmpi .sle main_arg1 main_v21
  let main_v23 : IVec S131072x64 1 := andi main_v20 main_v22
  let main_c_8 : IVec S_ 1 := constantI S_ 1 1#1
  let main_v24 : IVec S_ 1 := (fun x v => Host.reduce IntOp.andi x v reducesTo_S131072x64_S_d0_1 h_S_) main_v23 main_c_8
  let main_v25 : IVec S_ 1 := andi main_v18 main_v24
  main_v25

def fn {F : FTy → Type} [FloatOps F] (main_arg0 : FVec F S8192x4096 .f32) (main_arg1 : IVec S131072x64 32) (main_arg2 : FVec F S262144x1 .f32) (main_arg3 : FVec F S262144x1 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S262144x1 .f32 := Host.absf main_arg2
  let main_cst_0 : FVec F S_ .f32 := constant S_ .f32 0x7F800000#32
  let main_v5 : FVec F S262144x1 .f32 := broadcastInDim S262144x1 ![] bcast_S_S262144x1 main_cst_0
  let main_v6 : IVec S262144x1 1 := cmpf .olt main_v4 main_v5
  let main_c_1 : IVec S_ 1 := constantI S_ 1 1#1
  let main_v7 : IVec S_ 1 := (fun x v => Host.reduce IntOp.andi x v reducesTo_S262144x1_S_d0_1 h_S_) main_v6 main_c_1
  let main_v8 : IVec S_ 1 := andi main_v3 main_v7
  let main_v9 : FVec F S262144x1 .f32 := Host.absf main_arg3
  let main_cst_2 : FVec F S_ .f32 := constant S_ .f32 0x7F800000#32
  let main_v10 : FVec F S262144x1 .f32 := broadcastInDim S262144x1 ![] bcast_S_S262144x1 main_cst_2
  let main_v11 : IVec S262144x1 1 := cmpf .olt main_v9 main_v10
  let main_c_3 : IVec S_ 1 := constantI S_ 1 1#1
  let main_v12 : IVec S_ 1 := (fun x v => Host.reduce IntOp.andi x v reducesTo_S262144x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg1 main_v13 main_v16
-- ==== Kernel.lean ====
abbrev S8192x4096 : Shape := ⟨2, ![8192, 4096]⟩
abbrev S131072x64 : Shape := ⟨2, ![131072, 64]⟩
abbrev S262144x1 : Shape := ⟨2, ![262144, 1]⟩
abbrev S4096 : Shape := ⟨1, ![4096]⟩
abbrev S2048x4096 : Shape := ⟨2, ![2048, 4096]⟩
abbrev S4096x64 : Shape := ⟨2, ![4096, 64]⟩
abbrev S1x4096 : Shape := ⟨2, ![1, 4096]⟩
abbrev S2x2048x4096 : Shape := ⟨3, ![2, 2048, 4096]⟩
abbrev S128x4096 : Shape := ⟨2, ![128, 4096]⟩
abbrev S128x64 : Shape := ⟨2, ![128, 64]⟩
abbrev S2x128x4096 : Shape := ⟨3, ![2, 128, 4096]⟩
abbrev S128x64x64 : Shape := ⟨3, ![128, 64, 64]⟩
abbrev S128x64x1 : Shape := ⟨3, ![128, 64, 1]⟩
abbrev S1x128x4096 : Shape := ⟨3, ![1, 128, 4096]⟩
abbrev S4096x4096 : Shape := ⟨2, ![4096, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 12
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S131072x64, .i32⟩
  | .hbm, ⟨2, _⟩ => ⟨S262144x1, .f32⟩
  | .hbm, ⟨3, _⟩ => ⟨S262144x1, .f32⟩
  | .hbm, ⟨4, _⟩ => ⟨S4096, .f32⟩
  | .hbm, ⟨5, _⟩ => ⟨S2048x4096, .i32⟩
  | .hbm, ⟨6, _⟩ => ⟨S4096x64, .f32⟩
  | .hbm, ⟨7, _⟩ => ⟨S4096x64, .f32⟩
  | .hbm, ⟨8, _⟩ => ⟨S1x4096, .f32⟩
  | .hbm, ⟨9, _⟩ => ⟨S2x2048x4096, .bf16⟩
  | .hbm, ⟨10, _⟩ => ⟨S4096x4096, .bf16⟩
  | .hbm, ⟨11, _⟩ => ⟨S8192x4096, .f32⟩
  | .local _ .vmem, ⟨0, _⟩ => ⟨S128x4096, .i32⟩
  | .local _ .vmem, ⟨1, _⟩ => ⟨S128x4096, .i32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S2x128x4096, .bf16⟩
  | .local _ .vmem, ⟨11, _⟩ => ⟨S2x128x4096, .bf16⟩
  | .local _ .vmem, ⟨12, _⟩ => ⟨S2048x512, .f32⟩
  | .local _ .vmem, ⟨13, _⟩ => ⟨S2048x512, .f32⟩
  | .local _ .vmem, ⟨14, _⟩ => ⟨S1024x512, .bf16⟩
  | .local _ .vmem, ⟨15, _⟩ => ⟨S1024x512, .bf16⟩
  | .local _ .vmem, ⟨16, _⟩ => ⟨S1x1024, .f32⟩
  | .local _ .vmem, ⟨17, _⟩ => ⟨S1x1024, .f32⟩
  | .local _ .vmem, ⟨18, _⟩ => ⟨S2048x1024, .f32⟩
  | .local _ .vmem, ⟨19, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 4, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S131072x64_S2048x4096 : S131072x64.ShapeCasts S2048x4096
  shapeCasts_S262144x1_S4096x64 : S262144x1.ShapeCasts S4096x64
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S128x4096_S128x64x64 : S128x4096.ShapeCasts S128x64x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S128x64_S128x64x1 : S128x64.ShapeCasts S128x64x1
  broadcasts_S128x64x1_S128x64x64 : S128x64x1.Broadcasts S128x64x64
  shapeCasts_S128x64x64_S128x4096 : S128x64x64.ShapeCasts S128x4096
  bitsLt_bf16_f32 : FTy.bits .bf16 < FTy.bits .f32
  inb_S2x128x4096_S1x128x4096_0_0_0 : ∀ a, (![0, 0, 0] : Fin 3 → Nat) a + S1x128x4096.size a ≤ S2x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  packedbf16_S2x128x4096_S1x128x4096_0_0_0 : (Rect.unit (s := S2x128x4096) ![0, 0, 0] S1x128x4096.size inb_S2x128x4096_S1x128x4096_0_0_0).PackedRows (EltTy.packing .bf16)
  inb_S2x128x4096_S1x128x4096_1_0_0 : ∀ a, (![1, 0, 0] : Fin 3 → Nat) a + S1x128x4096.size a ≤ S2x128x4096.size a
  packedbf16_S2x128x4096_S1x128x4096_1_0_0 : (Rect.unit (s := S2x128x4096) ![1, 0, 0] S1x128x4096.size inb_S2x128x4096_S1x128x4096_1_0_0).PackedRows (EltTy.packing .bf16)
  shapeCasts_S2x2048x4096_S4096x4096 : S2x2048x4096.ShapeCasts S4096x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x1024_S2048x1024 : S2048x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S2048x4096.size a
  hwx0_0 : ∀ i : grid0.Coords, EltTy.bits .i32 = 32 ∨ (Rect.block (s := S2048x4096) S128x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S4096x64.size a
  hwx0_1 : ∀ i : grid0.Coords, EltTy.bits .f32 = 32 ∨ (Rect.block (s := S4096x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S4096x64.size a
  hwx0_2 : ∀ i : grid0.Coords, EltTy.bits .f32 = 32 ∨ (Rect.block (s := S4096x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S4096x64.size a
  hwx0_3 : ∀ i : grid0.Coords, EltTy.bits .f32 = 32 ∨ (Rect.block (s := S4096x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S4096x64.size a
  hwx0_4 : ∀ i : grid0.Coords, EltTy.bits .f32 = 32 ∨ (Rect.block (s := S4096x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x128x4096.size a ≤ S2x2048x4096.size a
  hwx0_5 : ∀ i : grid0.Coords, EltTy.bits .bf16 = 32 ∨ (Rect.block (s := S2x2048x4096) S2x128x4096.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .f32 = 32 ∨ (Rect.block (s := S8192x4096) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2x128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S131072x64 : Shape := ⟨2, ![131072, 64]⟩
abbrev S262144x1 : Shape := ⟨2, ![262144, 1]⟩
abbrev S4096 : Shape := ⟨1, ![4096]⟩
abbrev S_ : Shape := ⟨0, ![]⟩
abbrev S262144x64 : Shape := ⟨2, ![262144, 64]⟩
abbrev S4096x4096 : Shape := ⟨2, ![4096, 4096]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S131072x64, .i32⟩
  | .hbm, ⟨2, _⟩ => ⟨S262144x1, .f32⟩
  | .hbm, ⟨3, _⟩ => ⟨S262144x1, .f32⟩
  | .hbm, ⟨4, _⟩ => ⟨S4096, .f32⟩
  | .hbm, ⟨5, _⟩ => ⟨S_, .i32⟩
  | .hbm, ⟨6, _⟩ => ⟨S131072x64, .i32⟩
  | .hbm, ⟨7, _⟩ => ⟨S131072x64, .i32⟩
  | .hbm, ⟨8, _⟩ => ⟨S131072x64, .f32⟩
  | .hbm, ⟨9, _⟩ => ⟨S_, .i32⟩
  | .hbm, ⟨10, _⟩ => ⟨S131072x64, .i32⟩
  | .hbm, ⟨11, _⟩ => ⟨S131072x64, .i32⟩
  | .hbm, ⟨12, _⟩ => ⟨S131072x64, .f32⟩
  | .hbm, ⟨13, _⟩ => ⟨S262144x64, .f32⟩
  | .hbm, ⟨14, _⟩ => ⟨S262144x64, .f32⟩
  | .hbm, ⟨15, _⟩ => ⟨S262144x64, .f32⟩
  | .hbm, ⟨16, _⟩ => ⟨S262144x64, .f32⟩
  | .hbm, ⟨17, _⟩ => ⟨S262144x64, .f32⟩
  | .hbm, ⟨18, _⟩ => ⟨S4096x4096, .f32⟩
  | .hbm, ⟨19, _⟩ => ⟨S4096x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S131072x64 : S_.BroadcastsInDim S131072x64 (![] : Fin 0 → Fin S131072x64.rank)
  concatenates_S131072x64_S131072x64_S262144x64_d0 : Shape.Concatenates [S131072x64, S131072x64] S262144x64 0
  bcast_S262144x1_S262144x64_0_1 : S262144x1.BroadcastsInDim S262144x64 (![0, 1] : Fin 2 → Fin S262144x64.rank)
  shapeCasts_S262144x64_S4096x4096 : S262144x64.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KI.R0.lean ====
/-
  Region 0 (the dequantisation call), the body half, at the buffer contents `V` the region is entered with:
  what each window's block is at a grid point, what the body leaves in the output's staging buffer (its two
  stores, the high-nibble slab and the low-nibble slab), the body's triple, the proof data and the body
  obligation. The two scale windows read one array, and so do the two zero-point windows: each of those
  four windows holds its array at half the full share.
-/
import proofs.«420662_j35562329211254_3_alg».proof.Proof.Gen.KernelIdeal.Launch
import proofs.«420662_j35562329211254_3_alg».proof.Proof.Gen.KernelIdeal.Skeleton
import proofs.«420662_j35562329211254_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev rl0_0 : Rect S128x4096 := Rect.unit (s := S128x4096) ![0, 0] S128x4096.size inb_S128x4096_S128x4096_0_0
abbrev rl0_1 : Rect S128x64 := Rect.unit (s := S128x64) ![0, 0] S128x64.size inb_S128x64_S128x64_0_0
abbrev rs0_0 : Rect S2x128x4096 := Rect.unit (s := S2x128x4096) ![0, 0, 0] S1x128x4096.size inb_S2x128x4096_S1x128x4096_0_0_0
abbrev rs0_1 : Rect S2x128x4096 := Rect.unit (s := S2x128x4096) ![1, 0, 0] S1x128x4096.size inb_S2x128x4096_S1x128x4096_1_0_0

/-! ## What the body leaves in the output window's buffer -/

/-- The output's staging buffer after the body, from the input windows' blocks (packed words, scale and zero
    point of the high rows, scale and zero point of the low rows): slab 0 the dequantised high nibbles, slab 1
    the dequantised low nibbles; the two stores as pieces, last first. -/
def out0_5 (x0 : Vec F S128x4096 .i32) (x1 x2 x3 x4 : Vec F S128x64 .f32) : Vec F S2x128x4096 .bf16 :=
  View.canon [⟨rs0_1, k0_pay1 (k0_pay4 (View.ld x0 rl0_0) (View.ld x3 rl0_1) (View.ld x4 rl0_1))⟩,
    ⟨rs0_0, k0_pay3 (View.ld x0 rl0_0) (View.ld x1 rl0_1) (View.ld x2 rl0_1)⟩]

/-! ## The pipeline's proof data -/

/-- The share each window holds its array at: the two windows on the scale array a half each, the two on the
    zero-point array a half each, the others the whole. -/
def q0 : Fin cfg0.W → PosShare TreeShare
  | ⟨1, _⟩ => fullShare.left
  | ⟨3, _⟩ => fullShare.right
  | ⟨2, _⟩ => fullShare.left
  | ⟨4, _⟩ => fullShare.right
  | _ => fullShare

/-- The proof data of pipeline 0 on core `c`: the arrays as the region finds them; after the body at point `t`
    each input's buffer at its block and the output's at `out0_5` of the input blocks; the class-A invariant;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

/-- Input window 0's current staging buffer holds its block at every point, for any proof data whose array is the
    entry contents and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is the
    entry contents and whose body leaves the block in place: the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is the
    entry contents and whose body leaves the block in place: the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for any proof data whose array is the
    entry contents and whose body leaves the block in place: the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, for any proof data whose array is the
    entry contents and whose body leaves the block in place: the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The two slab stores tile the output buffer, so they cover it. -/
theorem cover0_5 (p1 p0 : Vec F S1x128x4096 .bf16) (y : S2x128x4096.Idx) :
    ∃ pc ∈ ([⟨rs0_1, p1⟩, ⟨rs0_0, p0⟩] : List (View.Piece (Elt F) S2x128x4096 .bf16)), y ∈ pc.1.set :=
  View.cover_of_tiled [⟨rs0_1, p1⟩, ⟨rs0_0, p0⟩] S1x128x4096.size (by rfl) y

/-! ## The body's triple -/

set_option maxHeartbeats 1000000 in
/-- The kernel body on whole staging memrefs, the five inputs' at read contents and the output's at anything, runs to
    the continuation holding the inputs' as they were and the output's at `out0_5` of the inputs': the printed
    functions are their skeletons, run through the part call; the two loads of the output buffer read values nothing
    uses, and the two slab stores cover the buffer, so what it held before plays no part. -/
theorem sound_kernel0 (c : Dev nD) (E : Set ℕ) (i : grid0.Coords) (arg1 : Memref sig .tc .vmem S128x4096 .i32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S2x128x4096 .bf16) (harg6 : arg6.IsWhole)
    (x0 : Vec F S128x4096 .i32) (x1 x2 x3 x4 : Vec F S128x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__dequant_kernel i arg1 harg1 arg2 harg2 arg3 harg3 arg4 harg4 arg5 harg5 arg6 harg6) K := by
  simp only [cc0__dequant_kernel_eq_skeleton]; unfold cc0__dequant_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_5 _ _)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, what the core owes, and each window's current
    staging buffer, the inputs' at what they then hold and the output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: every buffer at what the proof data says the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input's buffer holds its block, so the kernel's triple applies at the five blocks;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.Share0.lean ====
/-
  Region 0's arrays among the core's unscoped buffers, when two pairs of windows read one array each: the four
  distinct buffers behind the six windows, each held whole, are the six windows' arrays with the scale buffer and
  the zero-point buffer each dealt as two halves; and back, the inputs' contents unchanged.
-/
import proofs.«420662_j35562329211254_3_alg».proof.Proof.KI.R0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct buffers behind region 0's six windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v4) ↦{fullShare} W main_v4)) := by
  unfold Pipeline.arrBufs
  exact bigSep_eq_bigSepL_of_eq [main_v0, main_v1, main_v2, main_v4] (by decide) (by decide) _

/-- The six windows' arrays at contents `G`, one by one, each at its share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v0) ↦{fullShare} G 0) ∗ (((c : Thread nD τ).loc main_v1) ↦{fullShare.left} G 1)
          ∗ (((c : Thread nD τ).loc main_v2) ↦{fullShare.left} G 2) ∗ (((c : Thread nD τ).loc main_v1) ↦{fullShare.right} G 3)
          ∗ (((c : Thread nD τ).loc main_v2) ↦{fullShare.right} G 4) ∗ (((c : Thread nD τ).loc main_v4) ↦{fullShare} G 5)) := by
  unfold Dat.arrays
  rw [bigSep_W0]
  rw [(arr_whole0 0).set_eq_univ, (arr_whole0 1).set_eq_univ, (arr_whole0 2).set_eq_univ, (arr_whole0 5).set_eq_univ]
  rfl

/-- A core's unscoped buffers are the four buffers behind region 0's windows and the rest. -/
theorem split0 (c : Dev nD) (W : (b : Ref sig .tc) → Buf (Elt F) ((c : Thread nD τ).loc b)) :
    (unscopedBufs c W : sProp 𝕄)
      = iprop(Pipeline.arrBufs (Ix := Unit) (Name := ℕ) (U := UR sig nD τ) (Lvl := ℕ) spec0 c W
          ∗ Pipeline.unscopedRest (Ix := Unit) (Name := ℕ) (U := UR sig nD τ) (Lvl := ℕ) spec0 c W) := by
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

/-- ENTRY: the core's unscoped buffers at the region-entry contents are region 0's arrays at the proof data's entry
    contents — the scale buffer and the zero-point buffer each split into the halves of its two windows — and the rest. -/
theorem entry0 (c : Dev nD) :
    (unscopedBufs c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [split0, arrBufs0_eq, arrays0_eq]
  iintro ⟨⟨H0, H1, H2, H4⟩, Hr⟩
  ihave H1' := (pointsTo_share (PosShare.mem_left_op_right fullShare)).1 $$ H1
  icases H1' with ⟨H1l, H1r⟩
  ihave H2' := (pointsTo_share (PosShare.mem_left_op_right fullShare)).1 $$ H2
  icases H2' with ⟨H2l, H2r⟩
  isplitr [Hr]
  · isplitl [H0]; · iexact H0
    isplitl [H1l]; · iexact H1l
    isplitl [H2l]; · iexact H2l
    isplitl [H1r]; · iexact H1r
    isplitl [H2r]; · iexact H2r
    iexact H4
  · iexact Hr

/-- EXIT: region 0's arrays at their final contents — the inputs as entered, the output at what the write-backs
    leave — and the rest make the core's unscoped buffers at any contents `W'` that has the output array there and
    agrees with the entry contents elsewhere. -/
theorem exit0 (c : Dev nD) (W' : (b : Ref sig .tc) → Buf (Elt F) ((c : Thread nD τ).loc b))
    (hout : W' main_v4 = (dat0 V c).arrAt 5 cfg0.N) (hrest : ∀ b, b ≠ main_v4 → W' b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs c W' : sProp 𝕄) := by
  rw [split0, arrBufs0_eq, arrays0_eq]
  have hr : (Pipeline.unscopedRest (Ix := Unit) (Name := ℕ) (U := UR sig nD τ) (Lvl := ℕ) spec0 c W' : sProp 𝕄)
      = Pipeline.unscopedRest spec0 c (V c) := by
    unfold Pipeline.unscopedRest
    exact bigSep_congr fun b hb => by
      rw [hrest b (fun e => (Finset.mem_sdiff.mp hb).2 (e ▸ (by decide : main_v4 ∈ Finset.univ.image (Pipeline.arrRef spec0))))]
  rw [hr, hrest main_v0 (by decide), hrest main_v1 (by decide), hrest main_v2 (by decide), hout]
  rw [(dat0 V c).arrAt_in 0 rfl cfg0.N, (dat0 V c).arrAt_in 1 rfl cfg0.N, (dat0 V c).arrAt_in 2 rfl cfg0.N,
    (dat0 V c).arrAt_in 3 rfl cfg0.N, (dat0 V c).arrAt_in 4 rfl cfg0.N]
  iintro ⟨⟨H0, H1l, H2l, H1r, H2r, H4⟩, Hr⟩
  isplitr [Hr]
  · isplitl [H0]; · iexact H0
    isplitl [H1l H1r]
    · iapply (pointsTo_share (PosShare.mem_left_op_right fullShare)).2
      isplitl [H1l]; · iexact H1l
      iexact H1r
    isplitl [H2l H2r]
    · iapply (pointsTo_share (PosShare.mem_left_op_right fullShare)).2
      isplitl [H2l]; · iexact H2l
      iexact H2r
    iexact H4
  · iexact Hr

end Cert.KernelIdeal.Hand

end
-- ==== Proof.KI.R1.lean ====
/-
  Region 1 (the matrix product call), the body half, at the buffer contents `V` the region is entered with.
  The grid is 4 x 4 x 8 with the contraction axis innermost: at a point the body adds the product of the
  point's x block and w block to the output block, which it first zeroes when the contraction coordinate is 0
  and to which it adds the bias row when that coordinate is 7. So the body has three cases — the first point of
  a run of eight (A), a middle point (B), the last point (C) —, the output's staging buffer is carried from a
  point to the next within a run, and what it holds after a point is defined by recursion on the point.
-/
import proofs.«420662_j35562329211254_3_alg».proof.Proof.Gen.KernelIdeal.Launch
import proofs.«420662_j35562329211254_3_alg».proof.Proof.Gen.KernelIdeal.Skeleton
import proofs.«420662_j35562329211254_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch conditions -/

/-- The condition of the body's first conditional (the contraction coordinate is 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the second conditional (the contraction coordinate is 7). -/
abbrev cond1_1 (i : grid1.Coords) : Prop := (Scalar.cmpi .ne (Scalar.extui (Scalar.cmpi .eq (BitVec.ofNat 32 (i 2).val) 7#32)) 0#32) = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## The staging memrefs -/

/-- One staging buffer of the output window, through which its contents are stated (the choice does not matter). -/
abbrev VO1_3 : View sig .tc .vmem S2048x1024 .f32 := (Memref.whole cc1_stg3_0 : Memref sig .tc .vmem S2048x1024 .f32).view
abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)

/-! ## The body's runs, case by case -/

set_option maxHeartbeats 1000000 in
/-- The body in case A: on whole staging memrefs, the inputs' at their contents, the output's at anything, it runs to the
    continuation holding the inputs' as they were and the output's with the pieces its stores wrote (last first);
    the pieces are found by the run. -/
noncomputable def kernelRun1_A (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : cond1_0 i) (hc1 : ¬cond1_1 i)
    (x0 : Vec F S2048x512 .f32) (x1 : Vec F S1024x512 .bf16) (x2 : Vec F S1x1024 .f32) :
    { L3 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

set_option maxHeartbeats 1000000 in
/-- The body in case B: on whole staging memrefs, the inputs' at their contents, the output's at what the point before left, it runs to the
    continuation holding the inputs' as they were and the output's with the pieces its stores wrote (last first);
    the pieces are found by the run. -/
noncomputable def kernelRun1_B (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : ¬cond1_0 i) (hc1 : ¬cond1_1 i)
    (x0 : Vec F S2048x512 .f32) (x1 : Vec F S1024x512 .bf16) (x2 : Vec F S1x1024 .f32) (xo3 : Vec F S2048x1024 .f32) :
    { L3 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

set_option maxHeartbeats 1000000 in
/-- The body in case C: on whole staging memrefs, the inputs' at their contents, the output's at what the point before left, it runs to the
    continuation holding the inputs' as they were and the output's with the pieces its stores wrote (last first);
    the pieces are found by the run. -/
noncomputable def kernelRun1_C (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : ¬cond1_0 i) (hc1 : cond1_1 i)
    (x0 : Vec F S2048x512 .f32) (x1 : Vec F S1024x512 .bf16) (x2 : Vec F S1x1024 .f32) (xo3 : Vec F S2048x1024 .f32) :
    { L3 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

/-- Case A's pieces cover the output block. -/
theorem cover1_A_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : cond1_0 i) (hc1 : ¬cond1_1 i)
    (x0 : Vec F S2048x512 .f32) (x1 : Vec F S1024x512 .bf16) (x2 : Vec F S1x1024 .f32) (y : S2048x1024.Idx) :
    ∃ pc ∈ (kernelRun1_A c i arg3 harg3 arg4 harg4 arg5 harg5 arg6 harg6 hc0 hc1 x0 x1 x2).1, y ∈ pc.1.set :=
  View.cover_of_tiledL (kernelRun1_A c i arg3 harg3 arg4 harg4 arg5 harg5 arg6 harg6 hc0 hc1 x0 x1 x2).1 S2048x1024.size (by sl_kernel_rfl) y

/-- What case A leaves in the output's staging buffer: its pieces read back over junk. -/
def out1_A_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : cond1_0 i) (hc1 : ¬cond1_1 i)
    (x0 : Vec F S2048x512 .f32) (x1 : Vec F S1024x512 .bf16) (x2 : Vec F S1x1024 .f32) : Vec F S2048x1024 .f32 :=
  VO1_3.read (Elt F) (VO1_3.writes (Elt F) VO1_3.junk (kernelRun1_A c i arg3 harg3 arg4 harg4 arg5 harg5 arg6 harg6 hc0 hc1 x0 x1 x2).1)

/-- Case B's pieces cover the output block. -/
theorem cover1_B_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : ¬cond1_0 i) (hc1 : ¬cond1_1 i)
    (x0 : Vec F S2048x512 .f32) (x1 : Vec F S1024x512 .bf16) (x2 : Vec F S1x1024 .f32) (xo3 : Vec F S2048x1024 .f32) (y : S2048x1024.Idx) :
    ∃ pc ∈ (kernelRun1_B c i arg3 harg3 arg4 harg4 arg5 harg5 arg6 harg6 hc0 hc1 x0 x1 x2 xo3).1, y ∈ pc.1.set :=
  View.cover_of_tiledL (kernelRun1_B c i arg3 harg3 arg4 harg4 arg5 harg5 arg6 harg6 hc0 hc1 x0 x1 x2 xo3).1 S2048x1024.size (by sl_kernel_rfl) y

/-- What case B leaves in the output's staging buffer: its pieces read back over junk. -/
def out1_B_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : ¬cond1_0 i) (hc1 : ¬cond1_1 i)
    (x0 : Vec F S2048x512 .f32) (x1 : Vec F S1024x512 .bf16) (x2 : Vec F S1x1024 .f32) (xo3 : Vec F S2048x1024 .f32) : Vec F S2048x1024 .f32 :=
  VO1_3.read (Elt F) (VO1_3.writes (Elt F) VO1_3.junk (kernelRun1_B c i arg3 harg3 arg4 harg4 arg5 harg5 arg6 harg6 hc0 hc1 x0 x1 x2 xo3).1)

/-- Case C's pieces cover the output block. -/
theorem cover1_C_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : ¬cond1_0 i) (hc1 : cond1_1 i)
    (x0 : Vec F S2048x512 .f32) (x1 : Vec F S1024x512 .bf16) (x2 : Vec F S1x1024 .f32) (xo3 : Vec F S2048x1024 .f32) (y : S2048x1024.Idx) :
    ∃ pc ∈ (kernelRun1_C c i arg3 harg3 arg4 harg4 arg5 harg5 arg6 harg6 hc0 hc1 x0 x1 x2 xo3).1, y ∈ pc.1.set :=
  View.cover_of_tiledL (kernelRun1_C c i arg3 harg3 arg4 harg4 arg5 harg5 arg6 harg6 hc0 hc1 x0 x1 x2 xo3).1 S2048x1024.size (by sl_kernel_rfl) y

/-- What case C leaves in the output's staging buffer: its pieces read back over junk. -/
def out1_C_3 (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : ¬cond1_0 i) (hc1 : cond1_1 i)
    (x0 : Vec F S2048x512 .f32) (x1 : Vec F S1024x512 .bf16) (x2 : Vec F S1x1024 .f32) (xo3 : Vec F S2048x1024 .f32) : Vec F S2048x1024 .f32 :=
  VO1_3.read (Elt F) (VO1_3.writes (Elt F) VO1_3.junk (kernelRun1_C c i arg3 harg3 arg4 harg4 arg5 harg5 arg6 harg6 hc0 hc1 x0 x1 x2 xo3).1)

/-! ## The pieces as values -/

/-- The offsets of every access of the body: zero on both axes. -/
private theorem offs1_zero : (![0, 0] : Fin 2 → Nat) = fun _ => 0 := funext fun a => by fin_cases a <;> rfl

/-- Case A leaves the product of the blocks added to the zero block. -/
theorem out1_A_3_eq (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : cond1_0 i) (hc1 : ¬cond1_1 i)
    (x0 : Vec F S2048x512 .f32) (x1 : Vec F S1024x512 .bf16) (x2 : Vec F S1x1024 .f32) :
    out1_A_3 c i arg3 harg3 arg4 harg4 arg5 harg5 arg6 harg6 hc0 hc1 x0 x1 x2 = k1_pay2 x0 (k1_pay1 (F := F)) x1 := by
  unfold out1_A_3
  rw [View.read_writes_eq_canon _ _ _ (cover1_A_3 c i arg3 harg3 arg4 harg4 arg5 harg5 arg6 harg6 hc0 hc1 x0 x1 x2)]
  unfold kernelRun1_A
  dsimp only
  sl_unfold_words
  rw [View.canon_cons_unit_zero (S := S2048x1024) offs1_zero, View.readCov_unit_zero (S := S2048x1024) _ offs1_zero]
  simp only [View.readAt_eq_ld, harg3.read_unread, harg4.read_unread,
    View.ld_unit_zero (S := S2048x512) offs1_zero, View.ld_unit_zero (S := S1024x512) offs1_zero]

/-- Case B leaves the product of the blocks added to what the point before left. -/
theorem out1_B_3_eq (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : ¬cond1_0 i) (hc1 : ¬cond1_1 i)
    (x0 : Vec F S2048x512 .f32) (x1 : Vec F S1024x512 .bf16) (x2 : Vec F S1x1024 .f32) (xo3 : Vec F S2048x1024 .f32) :
    out1_B_3 c i arg3 harg3 arg4 harg4 arg5 harg5 arg6 harg6 hc0 hc1 x0 x1 x2 xo3 = k1_pay2 x0 xo3 x1 := by
  unfold out1_B_3
  rw [View.read_writes_eq_canon _ _ _ (cover1_B_3 c i arg3 harg3 arg4 harg4 arg5 harg5 arg6 harg6 hc0 hc1 x0 x1 x2 xo3)]
  unfold kernelRun1_B
  dsimp only
  rw [View.canon_unit_zero offs1_zero]
  simp only [View.readAt_eq_ld, harg3.read_unread, harg4.read_unread, harg6.read_unread,
    View.ld_unit_zero (S := S2048x512) offs1_zero, View.ld_unit_zero (S := S1024x512) offs1_zero,
    View.ld_unit_zero (S := S2048x1024) offs1_zero]

/-- Case C leaves the same with the bias row added. -/
theorem out1_C_3_eq (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (hc0 : ¬cond1_0 i) (hc1 : cond1_1 i)
    (x0 : Vec F S2048x512 .f32) (x1 : Vec F S1024x512 .bf16) (x2 : Vec F S1x1024 .f32) (xo3 : Vec F S2048x1024 .f32) :
    out1_C_3 c i arg3 harg3 arg4 harg4 arg5 harg5 arg6 harg6 hc0 hc1 x0 x1 x2 xo3 = k1_pay3 (k1_pay2 x0 xo3 x1) x2 := by
  unfold out1_C_3
  rw [View.read_writes_eq_canon _ _ _ (cover1_C_3 c i arg3 harg3 arg4 harg4 arg5 harg5 arg6 harg6 hc0 hc1 x0 x1 x2 xo3)]
  unfold kernelRun1_C
  dsimp only
  sl_unfold_words
  rw [View.canon_cons_unit_zero (S := S2048x1024) offs1_zero, View.readCov_unit_zero (S := S2048x1024) _ offs1_zero]
  simp only [View.readAt_eq_ld, harg3.read_unread, harg4.read_unread, harg5.read_unread, harg6.read_unread,
    View.ld_unit_zero (S := S2048x512) offs1_zero, View.ld_unit_zero (S := S1024x512) offs1_zero,
    View.ld_unit_zero (S := S1x1024) offs1_zero, View.ld_unit_zero (S := S2048x1024) offs1_zero]

/-! ## What the output's buffer holds after each point -/

/-- THE ACCUMULATION. What the output's staging buffer holds after the body at position `n`: the case the closed
    forms select at `n`, at the point's memrefs and input blocks, over what this leaves at `n - 1` in cases B and C. -/
def outsAt1 (c : Dev nD) : (n : ℕ) → n < cfg1.N → Vec F S2048x1024 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (fun h => absurd ((hcond1_1 ⟨0, hn⟩).mp h) (by dsimp only; omega)) (iblk1 V c 0 ⟨0, hn⟩) (iblk1 V c 1 ⟨0, hn⟩) (iblk1 V c 2 ⟨0, hn⟩)
  | n + 1, hn =>
    if h0 : (n + 1) % 8 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (fun h => absurd ((hcond1_1 ⟨n + 1, hn⟩).mp h) (by dsimp only; omega)) (iblk1 V c 0 ⟨n + 1, hn⟩) (iblk1 V c 1 ⟨n + 1, hn⟩) (iblk1 V c 2 ⟨n + 1, hn⟩)
    else if h7 : (n + 1) % 8 = 7 then
      out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h7) (iblk1 V c 0 ⟨n + 1, hn⟩) (iblk1 V c 1 ⟨n + 1, hn⟩) (iblk1 V c 2 ⟨n + 1, hn⟩) (outsAt1 c n (Nat.lt_of_succ_lt hn))
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (fun h => h7 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

/-- At a point ≡ 0 (mod 8) the recursion selects case A, at the point's memrefs and blocks. -/
theorem outsAt1_A_run (c : Dev nD) (t : Fin cfg1.N) (h0 : t.val % 8 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (fun h => absurd ((hcond1_1 t).mp h) (by omega)) (iblk1 V c 0 t) (iblk1 V c 1 t) (iblk1 V c 2 t) := by
  obtain ⟨n, hn⟩ := t
  cases n with
  | zero => exact rfl
  | succ n => exact (dif_pos h0).trans rfl

/-- At a middle point it selects case B, over what it leaves at the point before. -/
theorem outsAt1_B_run (c : Dev nD) (t : Fin cfg1.N) (h0 : ¬t.val % 8 = 0) (h7 : ¬t.val % 8 = 7) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (fun h => h7 ((hcond1_1 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h7).trans rfl)

/-- At a point ≡ 7 (mod 8) it selects case C, over what it leaves at the point before. -/
theorem outsAt1_C_run (c : Dev nD) (t : Fin cfg1.N) (h7 : t.val % 8 = 7) :
    outsAt1 V c t.val t.isLt = out1_C_3 c (grid1.coords t) (ms1_0 t) (hs1_0 t) (ms1_1 t) (hs1_1 t) (ms1_2 t) (hs1_2 t) (ms1_3 t) (hs1_3 t) (fun h => absurd ((hcond1_0 t).mp h) (by omega)) ((hcond1_1 t).mpr h7) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h7); omega)
  | succ n => exact (dif_neg (by dsimp only at h7; omega)).trans ((dif_pos h7).trans rfl)

/-- At a point ≡ 0 (mod 8): the product of the point's blocks added to the zero block. -/
theorem outsAt1_A (c : Dev nD) (t : Fin cfg1.N) (h0 : t.val % 8 = 0) :
    outsAt1 V c t.val t.isLt = k1_pay2 (iblk1 V c 0 t) (k1_pay1 (F := F)) (iblk1 V c 1 t) :=
  (outsAt1_A_run V c t h0).trans (out1_A_3_eq c _ _ _ _ _ _ _ _ _ _ _ _ _ _)

/-- At a middle point: the product of the point's blocks added to what the point before left. -/
theorem outsAt1_B (c : Dev nD) (t : Fin cfg1.N) (h0 : ¬t.val % 8 = 0) (h7 : ¬t.val % 8 = 7) :
    outsAt1 V c t.val t.isLt = k1_pay2 (iblk1 V c 0 t) (outsAt1 V c (t.val - 1) (Nat.lt_of_le_of_lt (Nat.sub_le _ _) t.isLt)) (iblk1 V c 1 t) :=
  (outsAt1_B_run V c t h0 h7).trans (out1_B_3_eq c _ _ _ _ _ _ _ _ _ _ _ _ _ _ _)

/-- At a point ≡ 7 (mod 8): the same with the bias row added. -/
theorem outsAt1_C (c : Dev nD) (t : Fin cfg1.N) (h7 : t.val % 8 = 7) :
    outsAt1 V c t.val t.isLt = k1_pay3 (k1_pay2 (iblk1 V c 0 t) (outsAt1 V c (t.val - 1) (Nat.lt_of_le_of_lt (Nat.sub_le _ _) t.isLt)) (iblk1 V c 1 t)) (iblk1 V c 2 t) :=
  (outsAt1_C_run V c t h7).trans (out1_C_3_eq c _ _ _ _ _ _ _ _ _ _ _ _ _ _ _)

/-! ## The pipeline's proof data -/

/-- The proof data of pipeline 1 on core `c`: the arrays as the region finds them; after the body at point `t` each
    input's buffer at its block and the output's at `outsAt1`; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

/-! ## What the body finds in each window's buffer -/

/-- The x window's current buffer holds its block at every point: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The w window's current buffer holds its block at every point: it is fetched at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The bias window's current buffer holds its block at every point, fetched there or not: where it is not
    fetched its block index has not moved, and the body left the block in place. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- At a point not ≡ 0 (mod 8) the output's current buffer holds what the body left at the point before: the point
    is not the first, and the point before, not ≡ 7 (mod 8), did not write the buffer back. -/
theorem before1_3_kept (c : Dev nD) (t : Fin cfg1.N) (h0 : ¬t.val % 8 = 0) (d) :
    (dat1 V c).before 3 t d = outsAt1 V c (t.val - 1) (Nat.lt_of_le_of_lt (Nat.sub_le _ _) t.isLt) := by
  have hN : t.val < 128 := lt_of_lt_of_eq t.isLt (show cfg1.N = 128 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' memrefs hold their blocks; the closed forms say which case the point is in; in
    the cases that read the output before covering it, its buffer holds what the point before left; so the case's
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 128 := lt_of_lt_of_eq t.isLt (show cfg1.N = 128 from N_1)
  by_cases h0 : t.val % 8 = 0
  · rw [outsAt1_A_run V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (fun h => absurd ((hcond1_1 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _)
  · by_cases h7 : t.val % 8 = 7
    · rw [outsAt1_C_run V c t h7]
      simp only [before1_3_kept V c t h0]
      unfold out1_C_3
      iintro ⟨HΦ, Ho, ⟨%d0, H0⟩, ⟨%d1, H1⟩, ⟨%d2, H2⟩, ⟨%d3, H3⟩⟩
      iapply ((kernelRun1_C c (grid1.coords t) _ _ _ _ _ _ _ _ (fun h => h0 ((hcond1_0 t).mp h)) ((hcond1_1 t).mpr h7) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _)
    · rw [outsAt1_B_run V c t h0 h7]
      simp only [before1_3_kept V c t h0]
      unfold out1_B_3
      iintro ⟨HΦ, Ho, ⟨%d0, H0⟩, ⟨%d1, H1⟩, ⟨%d2, H2⟩, ⟨%d3, H3⟩⟩
      iapply ((kernelRun1_B c (grid1.coords t) _ _ _ _ _ _ _ _ (fun h => h0 ((hcond1_0 t).mp h)) (fun h => h7 ((hcond1_1 t).mp h)) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Vals.lean ====
/-
  The buffer contents at each boundary of the program's four items (a stretch of four reshapes, the dequantisation
  region, one reshape, the matrix-product region): a fold from the launch memory. A host stretch applies its
  operations; a region changes exactly its output array, which ends at what the pipeline's write-backs leave.
-/
import proofs.«420662_j35562329211254_3_alg».proof.Proof.KI.R0
import proofs.«420662_j35562329211254_3_alg».proof.Proof.KI.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the four reshapes of the arguments (region 0's entry). -/
abbrev W1 (c : Dev nD) : Valuation τ sig (Elt F) := StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit: its output array at what the pipeline leaves, every other buffer as entered. -/
def W2 (c : Dev nD) : Valuation τ sig (Elt F) :=
  Function.update (W1 m c) main_v4 ((dat0 (V1 m) c).arrAt 5 cfg0.N)
abbrev V2 : (c : Dev nD) → (b : Ref sig .tc) → Buf (Elt F) ((c : Thread nD τ).loc b) := fun c b => W2 m c b
/-- After the reshape of the stacked weights (region 1's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- At region 1's exit: its output array at what the pipeline leaves, every other buffer as entered. -/
def W4 (c : Dev nD) : Valuation τ sig (Elt F) :=
  Function.update (W3 m c) main_v6 ((dat1 (V3 m) c).arrAt 3 cfg1.N)
abbrev V4 : (c : Dev nD) → (b : Ref sig .tc) → Buf (Elt F) ((c : Thread nD τ).loc b) := fun c b => W4 m c b

theorem W2_out (c : Dev nD) : W2 m c main_v4 = (dat0 (V1 m) c).arrAt 5 cfg0.N := by
  unfold W2; exact Function.update_self ..
theorem W2_of_ne (c : Dev nD) (b : Ref sig .tc) (hb : b ≠ main_v4) : W2 m c b = W1 m c b := by
  unfold W2; exact Function.update_of_ne (StableHlo.devRef_ne_of_ne hb) ..
theorem W4_out (c : Dev nD) : W4 m c main_v6 = (dat1 (V3 m) c).arrAt 3 cfg1.N := by
  unfold W4; exact Function.update_self ..
theorem W4_of_ne (c : Dev nD) (b : Ref sig .tc) (hb : b ≠ main_v6) : W4 m c b = W3 m c b := by
  unfold W4; exact Function.update_of_ne (StableHlo.devRef_ne_of_ne hb) ..

end Cert.KernelIdeal.Hand

end
-- ==== Proof.KI.Kept.lean ====
/-
  No item of the program writes an argument array: at every boundary each argument holds its launch contents.
-/
import proofs.«420662_j35562329211254_3_alg».proof.Proof.KI.Vals
import proofs.«420662_j35562329211254_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A reference that neither host stretch writes and that is neither region's output holds its launch contents at
    the end. -/
theorem W4_kept (c : Dev nD) (r : Ref sig .tc) (h0 : r ∉ hostOps0_W) (h1 : r ∉ hostOps1_W) (h4 : r ≠ main_v4) (h6 : r ≠ main_v6) :
    W4 m c r = m ((c : Thread nD τ).loc r) := by
  have e3 : W3 m c r = W2 m c r := StableHlo.after_of_writes_sub hostOps1 _ hostOps1_writes h1
  have e1 : W1 m c r = W0 m c r := StableHlo.after_of_writes_sub hostOps0 _ hostOps0_writes h0
  rw [W4_of_ne m c r h6, e3, W2_of_ne m c r h4, e1]

theorem W4_main_arg0 (c : Dev nD) : W4 m c main_arg0 = m ((c : Thread nD τ).loc main_arg0) :=
  W4_kept m c main_arg0 (by decide) (by decide) (by decide) (by decide)
theorem W4_main_arg1 (c : Dev nD) : W4 m c main_arg1 = m ((c : Thread nD τ).loc main_arg1) :=
  W4_kept m c main_arg1 (by decide) (by decide) (by decide) (by decide)
theorem W4_main_arg2 (c : Dev nD) : W4 m c main_arg2 = m ((c : Thread nD τ).loc main_arg2) :=
  W4_kept m c main_arg2 (by decide) (by decide) (by decide) (by decide)
theorem W4_main_arg3 (c : Dev nD) : W4 m c main_arg3 = m ((c : Thread nD τ).loc main_arg3) :=
  W4_kept m c main_arg3 (by decide) (by decide) (by decide) (by decide)
theorem W4_main_arg4 (c : Dev nD) : W4 m c main_arg4 = m ((c : Thread nD τ).loc main_arg4) :=
  W4_kept m c main_arg4 (by decide) (by decide) (by decide) (by decide)

end Cert.KernelIdeal.Hand

end
-- ==== Proof.KI.Run.lean ====
/-
  The launch: the program's four items as segments — a host segment per stretch of reshapes, a region segment per
  pallas_call — over the thread state "every unscoped buffer at the boundary's contents, the generator register at
  some state, nothing owed"; region 0's arrays are split out of the unscoped buffers with the scale and zero-point
  buffers dealt as halves to the two windows on each, region 1's at the full share. Every weakly fair execution
  terminates, and the final memory holds every unscoped buffer at the last boundary's contents.
-/
import proofs.«420662_j35562329211254_3_alg».proof.Proof.KI.Share0
import proofs.«420662_j35562329211254_3_alg».proof.Proof.KI.Kept

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (V1 m) c
  | ⟨1, _⟩ => fun c => dat1 (V3 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state and the core's
    `owes`, at nothing. -/
abbrev RH (c : Dev nD) : sProp 𝕄 := iprop((∃ r, prngReg c r) ∗ ∃ W, owes (c : Thread nD τ) (0 : CellTallies nD τ sig Unit) W)
/-- A host stretch as a segment from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- The last thread state without the `owes`. -/
abbrev TH (c : Dev nD) : sProp 𝕄 := iprop(StableHlo.held (c : Thread nD τ) (Pipeline.ucRefs τ sig) (W4 m c) ∗ ∃ r, prngReg c r)

/-- At region 1's exit each of its arrays holds what the pipeline leaves and every other buffer what it held at entry. -/
theorem hF1 (c : Dev nD) (w : Fin cfg1.W) : (dat1 (V3 m) c).arrAt w cfg1.N = V4 m c (Pipeline.arrRef spec1 w) := by
  match w with
  | ⟨0, _⟩ => exact ((dat1 (V3 m) c).arrAt_in 0 rfl _).trans (W4_of_ne m c main_arg0 (by decide)).symm
  | ⟨1, _⟩ => exact ((dat1 (V3 m) c).arrAt_in 1 rfl _).trans (W4_of_ne m c main_v5 (by decide)).symm
  | ⟨2, _⟩ => exact ((dat1 (V3 m) c).arrAt_in 2 rfl _).trans (W4_of_ne m c main_v3 (by decide)).symm
  | ⟨3, _⟩ => exact (W4_out m c).symm
theorem hrest1 (c : Dev nD) : ∀ b, b ∉ Finset.univ.image (Pipeline.arrRef spec1) → V4 m c b = V3 m c b :=
  fun b hb => W4_of_ne m c b fun e => hb (e ▸ (by decide : main_v6 ∈ Finset.univ.image (Pipeline.arrRef spec1)))

set_option backward.isDefEq.respectTransparency.types false in
/-- REGION 0 over the thread state: entered from every unscoped buffer at `W1`, left at `W2`. -/
def reg0 : Pipeline.RegionSeg (pcfgs (F := F)) admH (pdats m) () defs₀ 𝒱H LH lvH 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry0 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (V1 m) c (V2 m c) (W2_out m c) (fun b hb => W2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(TH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's 4 segments in order. -/
abbrev segsH : List (Pipeline.Seg (pcfgs (F := F)) admH (pdats m) () defs₀ 𝒱H LH lvH) :=
  [ .host (hsegH hostOps0 hostOps0_sub hostOps0_fresh (W0 m)),
    .region (reg0 m),
    .host (hsegH hostOps1 hostOps1_sub hostOps1_fresh (W2 m)),
    .region (reg1 m) ]
/-- The program IS the run of the segments. -/
theorem main_runH (c : Dev nD) : main (F := F) c = Pipeline.Seg.run (segsH m) := (main_chain c).trans (by chain_rfl)

/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admH (pdats m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run, read at the result and at the arguments: the result array holds what the matrix-product region's
    pipeline leaves, each argument its launch contents. -/
theorem run_main : θ_run defs (onTc (τ := τ) (main (F := F))) ⟨m, fun _ => 0, ρ⟩ (fun r => ∀ c : Dev nD,
      r.2.mem ((c.tc : Thread nD τ).loc main_v6) = W4 m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_ucH main_v6 (by decide)),
      (h c _ (mem_ucH main_arg0 (by decide))).trans (W4_main_arg0 m c),
      (h c _ (mem_ucH main_arg1 (by decide))).trans (W4_main_arg1 m c),
      (h c _ (mem_ucH main_arg2 (by decide))).trans (W4_main_arg2 m c),
      (h c _ (mem_ucH main_arg3 (by decide))).trans (W4_main_arg3 m c),
      (h c _ (mem_ucH main_arg4 (by decide))).trans (W4_main_arg4 m c)⟩) (run_all m ρ)

end Cert.KernelIdeal.Hand

end
-- ==== Proof.Spec.lean ====
/-
  The mathematics both programs compute, over the extended reals.
  A packed word holds two 4-bit codes; row `o` of the 4096 x 4096 weight matrix takes the high code of the words of
  packed row `o` when `o < 2048` and the low code of the words of packed row `o - 2048` otherwise; column `k`
  belongs to group `k / 64` of the row, and group `o * 64 + k / 64` has one zero point and one scale: the weight is
  `(code - zero) * scale`. The result is `x` times the transposed weights plus the bias row.
  The two programs differ in ONE place: the high code. One program shifts the word right by four and keeps the low
  four bits, the other only shifts; on words in the byte range 0 … 255 the two agree.
-/
import Idealize.ShloMosaic.PureOps.Ideal
import Idealize.ShloMosaic.Lib.ValueIdx

noncomputable section

namespace Cert.Spec

open Idealize.ShloMosaic

/-- An integer word read as a real number. -/
abbrev ofWord (w : BitVec 32) : EReal := ((w.toInt : ℝ) : EReal)

/-- The code a word contributes to the high half (`h = 0`: shifted right by four, then masked to four bits) or
    to the low half (`h = 1`: masked to four bits). -/
def nibK (h : Fin 2) (w : BitVec 32) : BitVec 32 :=
  if h.val = 0 then IntOp.andi (IntOp.shrsi .vector w 4#32) 15#32 else IntOp.andi w 15#32

/-- The same without the mask on the high half. -/
def nibR (h : Fin 2) (w : BitVec 32) : BitVec 32 :=
  if h.val = 0 then IntOp.shrsi .host w 4#32 else IntOp.andi w 15#32

/-- A word whose signed value lies in the byte range is below 256 read unsigned. -/
theorem toNat_lt_of_byte (w : BitVec 32) (h0 : 0 ≤ w.toInt) (h1 : w.toInt ≤ 255) : w.toNat < 256 := by
  rw [BitVec.toInt_eq_toNat_cond] at h0 h1
  split at h0 <;> omega

/-- Such a word has a clear sign bit. -/
theorem msb_false_of_lt (w : BitVec 32) (h : w.toNat < 256) : w.msb = false := by
  rw [BitVec.msb_eq_decide]; simp; omega

/-- A word below 256 shifted right by four is below 16, so the mask fifteen keeps all of it. -/
theorem sshiftRight_and_fifteen (w : BitVec 32) (h : w.toNat < 256) :
    (w.sshiftRight' 4#32) &&& 15#32 = w.sshiftRight' 4#32 := by
  have hm := msb_false_of_lt w h
  rw [BitVec.sshiftRight', BitVec.sshiftRight_eq_of_msb_false hm]
  apply BitVec.eq_of_toNat_eq
  rw [BitVec.toNat_and, BitVec.toNat_ushiftRight]
  show (w.toNat >>> 4) &&& (2 ^ 4 - 1) = w.toNat >>> 4
  rw [Nat.and_two_pow_sub_one_eq_mod, Nat.shiftRight_eq_div_pow]
  omega

/-- The shift amount four is below the width, so both units shift arithmetically. -/
theorem shrsi_vector_four (w : BitVec 32) : IntOp.shrsi .vector w 4#32 = w.sshiftRight' 4#32 := by
  unfold IntOp.shrsi; rw [if_pos (by decide)]

theorem shrsi_host_four (w : BitVec 32) : IntOp.shrsi .host w 4#32 = w.sshiftRight' 4#32 := by
  unfold IntOp.shrsi; rw [if_pos (by decide)]

/-- On a word in the byte range the shifted word already has only its low four bits set. -/
theorem nibK_eq_nibR (h : Fin 2) (w : BitVec 32) (h0 : 0 ≤ w.toInt) (h1 : w.toInt ≤ 255) : nibK h w = nibR h w := by
  unfold nibK nibR
  split
  · rw [shrsi_vector_four, shrsi_host_four]
    unfold IntOp.andi
    exact sshiftRight_and_fifteen w (toNat_lt_of_byte w h0 h1)
  · rfl

/-- The dequantised weight at row `o`, column `k`, for a choice `nib` of how a word's code is taken. -/
def wgt (nib : Fin 2 → BitVec 32 → BitVec 32) (wq : Fin 131072 → Fin 64 → BitVec 32) (sc zp : Fin 262144 → EReal)
    (o k : Fin 4096) : EReal :=
  (ofWord (nib ⟨o.val / 2048, by omega⟩ (wq ⟨(o.val % 2048) * 64 + k.val / 64, by omega⟩ ⟨k.val % 64, by omega⟩))
      - zp ⟨o.val * 64 + k.val / 64, by omega⟩)
    * sc ⟨o.val * 64 + k.val / 64, by omega⟩

/-- A row of `x` against a row of `w`, plus the bias. -/
def lin (x : Fin 8192 → Fin 4096 → EReal) (w : Fin 4096 → Fin 4096 → EReal) (b : Fin 4096 → EReal)
    (t : Fin 8192) (o : Fin 4096) : EReal :=
  (∑ k : Fin 4096, x t k * w o k) + b o

/-- The result at token `t`, output feature `o`. -/
def out (nib : Fin 2 → BitVec 32 → BitVec 32) (x : Fin 8192 → Fin 4096 → EReal) (wq : Fin 131072 → Fin 64 → BitVec 32)
    (sc zp : Fin 262144 → EReal) (b : Fin 4096 → EReal) (t : Fin 8192) (o : Fin 4096) : EReal :=
  lin x (wgt nib wq sc zp) b t o

/-- With every packed word in the byte range the two readings of the high code give one result. -/
theorem out_nibK_eq_nibR (x : Fin 8192 → Fin 4096 → EReal) (wq : Fin 131072 → Fin 64 → BitVec 32)
    (sc zp : Fin 262144 → EReal) (b : Fin 4096 → EReal)
    (hwq : ∀ g e, 0 ≤ (wq g e).toInt ∧ (wq g e).toInt ≤ 255) :
    out nibK x wq sc zp b = out nibR x wq sc zp b := by
  funext t o
  unfold out lin
  refine congrArg (· + b o) (Finset.sum_congr rfl fun k _ => ?_)
  unfold wgt
  rw [nibK_eq_nibR _ _ (hwq _ _).1 (hwq _ _).2]

end Cert.Spec

end
-- ==== Proof.KI.Val0.lean ====
/-
  Region 0's value over the extended reals: after the sixteen grid points the stacked output array holds, at slab
  `h`, row `r`, column `k`, the code of the packed word at (r, k) — the high code in slab 0, the low code in slab 1 —
  minus the zero point and times the scale of group `k / 64` of row `h * 2048 + r`. Every index of the array lies in
  exactly one point's block (point `r / 128`), and the block's two stores are the two slabs.
-/
import proofs.«420662_j35562329211254_3_alg».proof.Proof.KI.R0
import proofs.«420662_j35562329211254_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The block's layout operations at an index -/

section Layout
variable {α : Type}

/-- A row of 4096 columns cut into 64 groups of 64: group `g`, place `e` is column `g * 64 + e`. -/
theorem rows_as_groups (x : S128x4096.Idx → α) (h : S128x4096.ShapeCasts S128x64x64) (r : Fin 128) (g e : Fin 64) (k : Fin 4096)
    (hk : k.val = g.val * 64 + e.val) : shapeCast S128x64x64 x h (ix3 r g e) = x (ix2 r k) :=
  shapeCast_apply x h _ _ (by
    rw [Shape.rowMajor_val_three, Shape.rowMajor_val_two]
    show r.val * 4096 + k.val = (r.val * 64 + g.val) * 64 + e.val
    omega)

/-- The groups laid back as one row: column `k` is group `k / 64`, place `k % 64`. -/
theorem groups_as_rows (x : S128x64x64.Idx → α) (h : S128x64x64.ShapeCasts S128x4096) (r : Fin 128) (k : Fin 4096) (g e : Fin 64)
    (hk : k.val = g.val * 64 + e.val) : shapeCast S128x4096 x h (ix2 r k) = x (ix3 r g e) :=
  shapeCast_apply x h _ _ (by
    rw [Shape.rowMajor_val_three, Shape.rowMajor_val_two]
    show (r.val * 64 + g.val) * 64 + e.val = r.val * 4096 + k.val
    omega)

/-- One value per group, given a trailing unit axis. -/
theorem group_column (x : S128x64.Idx → α) (h : S128x64.ShapeCasts S128x64x1) (r : Fin 128) (g : Fin 64) (z : Fin 1) :
    shapeCast S128x64x1 x h (ix3 r g z) = x (ix2 r g) :=
  shapeCast_apply x h _ _ (by
    have hz : z.val = 0 := by omega
    rw [Shape.rowMajor_val_three, Shape.rowMajor_val_two]
    show r.val * 64 + g.val = (r.val * 64 + g.val) * 1 + z.val
    omega)

/-- The group's value repeated over the group's 64 places. -/
theorem group_spread (x : S128x64x1.Idx → α) (h : S128x64x1.Broadcasts S128x64x64) (r : Fin 128) (g e : Fin 64) :
    broadcastTo S128x64x64 x h (ix3 r g e) = x (ix3 r g (0 : Fin 1)) := by
  refine broadcastTo_apply x h (ix3 r g e) (ix3 r g (0 : Fin 1)) fun ax => ?_
  match ax with
  | ⟨0, _⟩ => rfl
  | ⟨1, _⟩ => rfl
  | ⟨2, _⟩ => rfl

end Layout

/-! ## The body's two stored slabs at an index -/

/-- The high-code slab: at row `r`, column `k`, the word's high code minus the zero point, times the scale, of group `k / 64`. -/
theorem slab_hi_apply (x0 : Vec Ideal S128x4096 .i32) (x1 x2 : Vec Ideal S128x64 .f32) (u : Fin 1) (r : Fin 128) (k : Fin 4096) :
    k0_pay3 x0 x1 x2 (ix3 u r k)
      = (Spec.ofWord (IntOp.andi (IntOp.shrsi .vector (x0 (ix2 r k)) 4#32) 15#32) - x2 (ix2 r ⟨k.val / 64, by omega⟩))
          * x1 (ix2 r ⟨k.val / 64, by omega⟩) := by
  have hk : k.val = (⟨k.val / 64, by omega⟩ : Fin 64).val * 64 + (⟨k.val % 64, by omega⟩ : Fin 64).val := by
    show k.val = k.val / 64 * 64 + k.val % 64; omega
  unfold k0_pay3 k0_pay2
  refine (shapeCast_ab_1ab_apply _ _ u r k).trans ?_
  refine (truncf_apply (φ := .f32) (ψ := .bf16) _ _ _).trans ?_
  refine (groups_as_rows _ _ r k ⟨k.val / 64, by omega⟩ ⟨k.val % 64, by omega⟩ hk).trans ?_
  refine (mulf_apply _ _ _).trans ?_
  refine congrArg₂ (· * ·) ((subf_apply _ _ _).trans (congrArg₂ (· - ·) ?_ ?_)) ?_
  · refine (rows_as_groups _ _ r _ _ k hk).trans ?_
    exact congrArg (fun w => Spec.ofWord (IntOp.andi (IntOp.shrsi .vector w 4#32) 15#32)) (congrFun (shapeCast_self x0 _) (ix2 r k))
  · refine (group_spread _ _ r _ _).trans ?_
    refine (group_column _ _ r _ _).trans ?_
    exact congrFun (shapeCast_self x2 _) _
  · refine (group_spread _ _ r _ _).trans ?_
    refine (group_column _ _ r _ _).trans ?_
    exact congrFun (shapeCast_self x1 _) _

/-- The low-code slab: the same with the word's low code and the low half's scale and zero point. -/
theorem slab_lo_apply (x0 : Vec Ideal S128x4096 .i32) (x3 x4 : Vec Ideal S128x64 .f32) (u : Fin 1) (r : Fin 128) (k : Fin 4096) :
    k0_pay1 (k0_pay4 x0 x3 x4) (ix3 u r k)
      = (Spec.ofWord (IntOp.andi (x0 (ix2 r k)) 15#32) - x4 (ix2 r ⟨k.val / 64, by omega⟩))
          * x3 (ix2 r ⟨k.val / 64, by omega⟩) := by
  have hk : k.val = (⟨k.val / 64, by omega⟩ : Fin 64).val * 64 + (⟨k.val % 64, by omega⟩ : Fin 64).val := by
    show k.val = k.val / 64 * 64 + k.val % 64; omega
  unfold k0_pay1 k0_pay4 k0_pay2
  refine (shapeCast_ab_1ab_apply _ _ u r k).trans ?_
  refine (truncf_apply (φ := .f32) (ψ := .bf16) _ _ _).trans ?_
  refine (groups_as_rows _ _ r k ⟨k.val / 64, by omega⟩ ⟨k.val % 64, by omega⟩ hk).trans ?_
  refine (mulf_apply _ _ _).trans ?_
  refine congrArg₂ (· * ·) ((subf_apply _ _ _).trans (congrArg₂ (· - ·) ?_ ?_)) ?_
  · refine (rows_as_groups _ _ r _ _ k hk).trans ?_
    exact congrArg (fun w => Spec.ofWord (IntOp.andi w 15#32)) (congrFun (shapeCast_self x0 _) (ix2 r k))
  · refine (group_spread _ _ r _ _).trans ?_
    refine (group_column _ _ r _ _).trans ?_
    exact congrFun (shapeCast_self x4 _) _
  · refine (group_spread _ _ r _ _).trans ?_
    refine (group_column _ _ r _ _).trans ?_
    exact congrFun (shapeCast_self x3 _) _

/-! ## The output block at an index -/

theorem zero_off2 : (![0, 0] : Fin 2 → Nat) = fun _ => 0 := funext fun a => by fin_cases a <;> rfl

/-- The block the body leaves, over the loaded blocks themselves: each load reads its whole buffer. -/
theorem out0_5_eq (x0 : Vec Ideal S128x4096 .i32) (x1 x2 x3 x4 : Vec Ideal S128x64 .f32) :
    out0_5 x0 x1 x2 x3 x4
      = View.canon [⟨rs0_1, k0_pay1 (k0_pay4 x0 x3 x4)⟩, ⟨rs0_0, k0_pay3 x0 x1 x2⟩] := by
  unfold out0_5
  simp only [View.ld_unit_zero (S := S128x4096) zero_off2, View.ld_unit_zero (S := S128x64) zero_off2]

/-- An index of slab 0 is outside the second store's rectangle. -/
theorem slab0_not_mem (h : Fin 2) (hh : h.val = 0) (r : Fin 128) (k : Fin 4096) :
    (ix3 h r k : S2x128x4096.Idx) ∉ (rs0_1).set := by
  rw [Rect.mem_set_unit]
  intro hm
  have h1 : (1 : Nat) ≤ h.val := (hm (0 : Fin 3)).1
  omega

/-- An index of slab 0 under the first store's rectangle. -/
theorem slab0_emb (h : Fin 2) (hh : h.val = 0) (r : Fin 128) (k : Fin 4096) :
    (ix3 h r k : S2x128x4096.Idx) = (rs0_0).emb (ix3 (0 : Fin 1) r k) := by
  funext a; apply Fin.ext
  match a with
  | ⟨0, _⟩ => show h.val = 0 + 1 * 0; omega
  | ⟨1, _⟩ => show r.val = 0 + 1 * r.val; omega
  | ⟨2, _⟩ => show k.val = 0 + 1 * k.val; omega

/-- An index of slab 1 under the second store's rectangle. -/
theorem slab1_emb (h : Fin 2) (hh : h.val = 1) (r : Fin 128) (k : Fin 4096) :
    (ix3 h r k : S2x128x4096.Idx) = (rs0_1).emb (ix3 (0 : Fin 1) r k) := by
  funext a; apply Fin.ext
  match a with
  | ⟨0, _⟩ => show h.val = 1 + 1 * 0; omega
  | ⟨1, _⟩ => show r.val = 0 + 1 * r.val; omega
  | ⟨2, _⟩ => show k.val = 0 + 1 * k.val; omega

/-- Slab 0 of the block the body leaves is the high-code slab. -/
theorem out0_5_hi (x0 : Vec Ideal S128x4096 .i32) (x1 x2 x3 x4 : Vec Ideal S128x64 .f32) (h : Fin 2) (hh : h.val = 0)
    (r : Fin 128) (k : Fin 4096) :
    out0_5 x0 x1 x2 x3 x4 (ix3 h r k)
      = (Spec.ofWord (IntOp.andi (IntOp.shrsi .vector (x0 (ix2 r k)) 4#32) 15#32) - x2 (ix2 r ⟨k.val / 64, by omega⟩))
          * x1 (ix2 r ⟨k.val / 64, by omega⟩) := by
  rw [out0_5_eq]
  refine (View.canon_cons_of_not_mem (⟨rs0_1, k0_pay1 (k0_pay4 x0 x3 x4)⟩ : View.Piece (Elt Ideal) S2x128x4096 .bf16)
    [⟨rs0_0, k0_pay3 x0 x1 x2⟩] (slab0_not_mem h hh r k)).trans ?_
  rw [slab0_emb h hh r k, View.canon_cons_emb]
  exact slab_hi_apply x0 x1 x2 0 r k

/-- Slab 1 is the low-code slab. -/
theorem out0_5_lo (x0 : Vec Ideal S128x4096 .i32) (x1 x2 x3 x4 : Vec Ideal S128x64 .f32) (h : Fin 2) (hh : h.val = 1)
    (r : Fin 128) (k : Fin 4096) :
    out0_5 x0 x1 x2 x3 x4 (ix3 h r k)
      = (Spec.ofWord (IntOp.andi (x0 (ix2 r k)) 15#32) - x4 (ix2 r ⟨k.val / 64, by omega⟩))
          * x3 (ix2 r ⟨k.val / 64, by omega⟩) := by
  rw [out0_5_eq, slab1_emb h hh r k, View.canon_cons_emb]
  exact slab_lo_apply x0 x3 x4 0 r k

variable (V : (c : Dev nD) → (b : Ref sig .tc) → Buf (Elt Ideal) ((c : Thread nD τ).loc b))

/-- The dequantised entry of slab `h`, row `r`, column `k`, from the packed words (2048 x 4096) and the scales and
    zero points laid out one row of 64 groups per output row (4096 x 64). -/
def deqK (pk : Fin 2048 → Fin 4096 → BitVec 32) (sc zp : Fin 4096 → Fin 64 → EReal) (h : Fin 2) (r : Fin 2048) (k : Fin 4096) : EReal :=
  (Spec.ofWord (Spec.nibK h (pk r k)) - zp ⟨h.val * 2048 + r.val, by omega⟩ ⟨k.val / 64, by omega⟩)
    * sc ⟨h.val * 2048 + r.val, by omega⟩ ⟨k.val / 64, by omega⟩

/-! ## Where each window's block sits at a point -/

/-- The printed index maps over the sixteen points: the output's block is rows `128 t …` of both slabs, the packed
    words' block the same rows, the high half's scale and zero rows the same rows, the low half's 2048 rows further. -/
theorem idx_facts0 : ∀ t : Fin cfg0.N,
    win0_5.index t (0 : Fin 3) = 0 ∧ win0_5.index t (1 : Fin 3) = t.val ∧ win0_5.index t (2 : Fin 3) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val + 16 ∧ win0_3.index t (1 : Fin 2) = 0
    ∧ win0_4.index t (0 : Fin 2) = t.val + 16 ∧ win0_4.index t (1 : Fin 2) = 0
    ∧ t.val < 16 :=
  (by decide +kernel : ∀ t : Fin grid0.N, _)

/-- The packed words' block at point `t` is rows `128 t …` of the packed array. -/
theorem words_blk (c : Dev nD) (t : Fin cfg0.N) (x : S128x4096.Idx) (K : S2048x4096.Idx)
    (h0 : (K 0).val = t.val * 128 + (x 0).val) (h1 : (K 1).val = (x 1).val) :
    (iblk0 (F := Ideal) V c 0 t : Vec Ideal S128x4096 .i32) x = (V c main_v0 : S2048x4096.Idx → BitVec 32) K := by
  obtain ⟨-, -, -, e0, e1, -⟩ := idx_facts0 t
  show V c main_v0 (((cfg0.win 0).blk t).view.emb x) = V c main_v0 K
  congr 1
  funext a; apply Fin.ext
  match a with
  | ⟨0, _⟩ => show win0_0.index t (0 : Fin 2) * 128 + 1 * (x 0).val = (K 0).val; omega
  | ⟨1, _⟩ => show win0_0.index t (1 : Fin 2) * 4096 + 1 * (x 1).val = (K 1).val; omega

/-- The high half's scale block at point `t` is rows `128 t …` of the scale array. -/
theorem scale_hi_blk (c : Dev nD) (t : Fin cfg0.N) (x : S128x64.Idx) (K : S4096x64.Idx)
    (h0 : (K 0).val = t.val * 128 + (x 0).val) (h1 : (K 1).val = (x 1).val) :
    (iblk0 (F := Ideal) V c 1 t : Vec Ideal S128x64 .f32) x = (V c main_v1 : S4096x64.Idx → EReal) K := by
  obtain ⟨-, -, -, -, -, e0, e1, -⟩ := idx_facts0 t
  show V c main_v1 (((cfg0.win 1).blk t).view.emb x) = V c main_v1 K
  congr 1
  funext a; apply Fin.ext
  match a with
  | ⟨0, _⟩ => show win0_1.index t (0 : Fin 2) * 128 + 1 * (x 0).val = (K 0).val; omega
  | ⟨1, _⟩ => show win0_1.index t (1 : Fin 2) * 64 + 1 * (x 1).val = (K 1).val; omega

/-- The high half's zero-point block at point `t` is rows `128 t …` of the zero-point array. -/
theorem zero_hi_blk (c : Dev nD) (t : Fin cfg0.N) (x : S128x64.Idx) (K : S4096x64.Idx)
    (h0 : (K 0).val = t.val * 128 + (x 0).val) (h1 : (K 1).val = (x 1).val) :
    (iblk0 (F := Ideal) V c 2 t : Vec Ideal S128x64 .f32) x = (V c main_v2 : S4096x64.Idx → EReal) K := by
  obtain ⟨-, -, -, -, -, -, -, e0, e1, -⟩ := idx_facts0 t
  show V c main_v2 (((cfg0.win 2).blk t).view.emb x) = V c main_v2 K
  congr 1
  funext a; apply Fin.ext
  match a with
  | ⟨0, _⟩ => show win0_2.index t (0 : Fin 2) * 128 + 1 * (x 0).val = (K 0).val; omega
  | ⟨1, _⟩ => show win0_2.index t (1 : Fin 2) * 64 + 1 * (x 1).val = (K 1).val; omega

/-- The low half's scale block at point `t` is rows `2048 + 128 t …` of the scale array. -/
theorem scale_lo_blk (c : Dev nD) (t : Fin cfg0.N) (x : S128x64.Idx) (K : S4096x64.Idx)
    (h0 : (K 0).val = 2048 + t.val * 128 + (x 0).val) (h1 : (K 1).val = (x 1).val) :
    (iblk0 (F := Ideal) V c 3 t : Vec Ideal S128x64 .f32) x = (V c main_v1 : S4096x64.Idx → EReal) K := by
  obtain ⟨-, -, -, -, -, -, -, -, -, e0, e1, -⟩ := idx_facts0 t
  show V c main_v1 (((cfg0.win 3).blk t).view.emb x) = V c main_v1 K
  congr 1
  funext a; apply Fin.ext
  match a with
  | ⟨0, _⟩ => show win0_3.index t (0 : Fin 2) * 128 + 1 * (x 0).val = (K 0).val; omega
  | ⟨1, _⟩ => show win0_3.index t (1 : Fin 2) * 64 + 1 * (x 1).val = (K 1).val; omega

/-- The low half's zero-point block at point `t` is rows `2048 + 128 t …` of the zero-point array. -/
theorem zero_lo_blk (c : Dev nD) (t : Fin cfg0.N) (x : S128x64.Idx) (K : S4096x64.Idx)
    (h0 : (K 0).val = 2048 + t.val * 128 + (x 0).val) (h1 : (K 1).val = (x 1).val) :
    (iblk0 (F := Ideal) V c 4 t : Vec Ideal S128x64 .f32) x = (V c main_v2 : S4096x64.Idx → EReal) K := by
  obtain ⟨-, -, -, -, -, -, -, -, -, -, -, e0, e1, -⟩ := idx_facts0 t
  show V c main_v2 (((cfg0.win 4).blk t).view.emb x) = V c main_v2 K
  congr 1
  funext a; apply Fin.ext
  match a with
  | ⟨0, _⟩ => show win0_4.index t (0 : Fin 2) * 128 + 1 * (x 0).val = (K 0).val; omega
  | ⟨1, _⟩ => show win0_4.index t (1 : Fin 2) * 64 + 1 * (x 1).val = (K 1).val; omega

/-! ## What a point writes back, and the array after the sixteen points -/

/-- The array the region leaves, index by index. -/
abbrev deq0 (c : Dev nD) : S2x2048x4096.Idx → EReal :=
  fun i => deqK (fun r k => V c main_v0 (ix2 r k)) (fun o g => V c main_v1 (ix2 o g)) (fun o g => V c main_v2 (ix2 o g)) (i 0) (i 1) (i 2)

/-- The block the body leaves at point `t`, at slab `h`, row `r`, column `k`, is the dequantised entry of row
    `128 t + r` of the slab. -/
theorem block_entry (c : Dev nD) (t : Fin cfg0.N) (h : Fin 2) (r : Fin 128) (k : Fin 4096) (R : Fin 2048)
    (hR : R.val = t.val * 128 + r.val) :
    out0_5 (iblk0 (F := Ideal) V c 0 t) (iblk0 V c 1 t) (iblk0 V c 2 t) (iblk0 V c 3 t) (iblk0 V c 4 t) (ix3 h r k)
      = deqK (fun r k => V c main_v0 (ix2 r k)) (fun o g => V c main_v1 (ix2 o g)) (fun o g => V c main_v2 (ix2 o g)) h R k := by
  unfold deqK Spec.nibK
  rcases (show h.val = 0 ∨ h.val = 1 by omega) with hh | hh
  · rw [out0_5_hi _ _ _ _ _ h hh r k, if_pos hh]
    refine congrArg₂ (· * ·) (congrArg₂ (· - ·) ?_ ?_) ?_
    · exact congrArg (fun w => Spec.ofWord (IntOp.andi (IntOp.shrsi .vector w 4#32) 15#32))
        (words_blk V c t (ix2 r k) (ix2 R k) hR rfl)
    · exact zero_hi_blk V c t (ix2 r _) (ix2 _ _) (by show h.val * 2048 + R.val = t.val * 128 + r.val; omega) rfl
    · exact scale_hi_blk V c t (ix2 r _) (ix2 _ _) (by show h.val * 2048 + R.val = t.val * 128 + r.val; omega) rfl
  · rw [out0_5_lo _ _ _ _ _ h hh r k, if_neg (by omega)]
    refine congrArg₂ (· * ·) (congrArg₂ (· - ·) ?_ ?_) ?_
    · exact congrArg (fun w => Spec.ofWord (IntOp.andi w 15#32)) (words_blk V c t (ix2 r k) (ix2 R k) hR rfl)
    · exact zero_lo_blk V c t (ix2 r _) (ix2 _ _) (by show h.val * 2048 + R.val = 2048 + t.val * 128 + r.val; omega) rfl
    · exact scale_lo_blk V c t (ix2 r _) (ix2 _ _) (by show h.val * 2048 + R.val = 2048 + t.val * 128 + r.val; omega) rfl

/-- So the block at point `t` is the array's function read where the block sits. -/
theorem block_at (c : Dev nD) (t : Fin cfg0.N) (j : S2x128x4096.Idx) :
    out0_5 (iblk0 (F := Ideal) V c 0 t) (iblk0 V c 1 t) (iblk0 V c 2 t) (iblk0 V c 3 t) (iblk0 V c 4 t) j
      = deq0 V c (((cfg0.win 5).blk t).view.emb j) := by
  obtain ⟨e0, e1, e2, -, -, -, -, -, -, -, -, -, -, ht⟩ := idx_facts0 t
  obtain ⟨h, r, k, rfl⟩ : ∃ (h : Fin 2) (r : Fin 128) (k : Fin 4096), j = ix3 h r k := ⟨j 0, j 1, j 2, eq_ix3 j⟩
  have E : (((cfg0.win 5).blk t).view.emb (ix3 h r k) : S2x2048x4096.Idx) = ix3 h ⟨t.val * 128 + r.val, by omega⟩ k := by
    funext a; apply Fin.ext
    match a with
    | ⟨0, _⟩ => show win0_5.index t (0 : Fin 3) * 2 + 1 * h.val = h.val; omega
    | ⟨1, _⟩ => show win0_5.index t (1 : Fin 3) * 128 + 1 * r.val = t.val * 128 + r.val; omega
    | ⟨2, _⟩ => show win0_5.index t (2 : Fin 3) * 4096 + 1 * k.val = k.val; omega
  rw [E]
  exact block_entry V c t h r k _ rfl

/-- What point `t` writes back is block `t` of that array. -/
theorem flushed0_5_eq (c : Dev nD) (t : Fin cfg0.N) :
    (dat0 (F := Ideal) V c).flushed 5 t = ((cfg0.win 5).blk t).view.read (Elt Ideal) (deq0 V c) := by
  show (cfg0.win 5).cut (grid0.coords t) ((dat0 (F := Ideal) V c).after 5 t) = _
  rw [after0_5]
  funext y
  exact block_at V c t y

/-- An index of the array is in point `t`'s block iff each coordinate is in the block's range on its axis. -/
theorem mem_blk0_5 (t : Fin cfg0.N) (i : S2x2048x4096.Idx) :
    i ∈ ((cfg0.win 5).blk t).view.set ↔ ∀ a : Fin 3, win0_5.index t a * S2x128x4096.size a ≤ (i a).val
      ∧ (i a).val < win0_5.index t a * S2x128x4096.size a + S2x128x4096.size a := by
  show i ∈ ((View.whole main_v4).slice (win0_5.rect t)).set ↔ _
  rw [View.set_slice_whole, Rect.mem_set_unit]
  exact Iff.rfl

/-- Row `r` of either slab is in the block of point `r / 128`: the sixteen blocks cover the array. -/
theorem covered0_5 (i : S2x2048x4096.Idx) :
    ∃ t : Fin cfg0.N, (cfg0.win 5).flush t = true ∧ i ∈ ((cfg0.win 5).blk t).view.set := by
  have hi0 : (i 0).val < 2 := (i 0).isLt
  have hi1 : (i 1).val < 2048 := (i 1).isLt
  have hi2 : (i 2).val < 4096 := (i 2).isLt
  obtain ⟨t, ht⟩ : ∃ t : Fin cfg0.N, t.val = (i 1).val / 128 :=
    ⟨⟨(i 1).val / 128, by rw [show cfg0.N = 16 from N_0]; omega⟩, rfl⟩
  obtain ⟨e0, e1, e2, -⟩ := idx_facts0 t
  refine ⟨t, flush0_5 t, ?_⟩
  rw [mem_blk0_5]
  intro a
  match a with
  | ⟨0, _⟩ => show win0_5.index t (0 : Fin 3) * 2 ≤ (i 0).val ∧ (i 0).val < win0_5.index t (0 : Fin 3) * 2 + 2; omega
  | ⟨1, _⟩ => show win0_5.index t (1 : Fin 3) * 128 ≤ (i 1).val ∧ (i 1).val < win0_5.index t (1 : Fin 3) * 128 + 128; omega
  | ⟨2, _⟩ => show win0_5.index t (2 : Fin 3) * 4096 ≤ (i 2).val ∧ (i 2).val < win0_5.index t (2 : Fin 3) * 4096 + 4096; omega

/-- What region 0 leaves in its output array. -/
theorem arrAt0_5 (c : Dev nD) : (dat0 (F := Ideal) V c).arrAt 5 cfg0.N
    = fun i : S2x2048x4096.Idx => deqK (fun r k => V c main_v0 (ix2 r k)) (fun o g => V c main_v1 (ix2 o g))
        (fun o g => V c main_v2 (ix2 o g)) (i 0) (i 1) (i 2) :=
  (dat0 (F := Ideal) V c).arrAt_eq_of_cover 5 (deq0 V c) (fun t _ => flushed0_5_eq V c t) covered0_5

end Cert.KernelIdeal.Hand

end
-- ==== Proof.KI.Val1.lean ====
/-
  Region 1's value over the extended reals: after the 128 grid points the output array holds, at row `t` and
  column `o`, the sum over all 4096 contraction indices of x[t, k] * w[o, k], plus the bias entry `o`. The grid
  point (i, j, kb) adds the partial sum over the 512 indices of block `kb` to the output block (i, j), which starts
  from zero at kb = 0 and receives the bias at kb = 7; addition of extended reals is associative and commutative,
  so the eight partial sums regroup into the whole sum.
-/
import proofs.«420662_j35562329211254_3_alg».proof.Proof.KI.R1
import proofs.«420662_j35562329211254_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## The body's arithmetic, read at an index -/

/-- The left operand's index on its row axis is the output's row. -/
theorem lhs1_axis_0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
/-- The left operand's index on its contracted axis is the contraction index. -/
theorem lhs1_axis_1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
/-- The right operand's index on its row axis is the output's column. -/
theorem rhs1_axis_0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
/-- The right operand's index on its contracted axis is the contraction index. -/
theorem rhs1_axis_1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The zero block reads zero. -/
theorem k1_pay1_apply (j : S2048x1024.Idx) : k1_pay1 (F := Ideal) j = 0 := by
  unfold k1_pay1
  exact Ideal.ofBits_zero_f32

/-- The accumulating store's value at row `p`, column `r` of the block: what was there plus the sum over the block's 512
    contraction indices of the x block's row `p` against the w block's row `r`. -/
theorem k1_pay2_apply (x : Vec Ideal S2048x512 .f32) (prev : Vec Ideal S2048x1024 .f32) (w : Vec Ideal S1024x512 .bf16)
    (p : Fin 2048) (r : Fin 1024) :
    k1_pay2 x prev w (ix2 p r) = prev (ix2 p r) + ∑ k : Fin 512, x (ix2 p k) * w (ix2 r k) := by
  unfold k1_pay2
  refine (addf_apply _ _ _).trans ?_
  refine congrArg₂ (· + ·) (congrFun (shapeCast_self prev _) _) ?_
  refine (Ideal.matmul_constant_zero_apply dot_S2048x512_S1024x512_S2048x1024_1_1_0_0_n_n none _ _ (ix2 p r)).trans ?_
  refine (Equiv.sum_comp (contrEquiv1 dot_S2048x512_S1024x512_S2048x1024_1_1_0_0_n_n 512 rfl rfl).symm _).symm.trans ?_
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 p r) ((contrEquiv1 dot_S2048x512_S1024x512_S2048x1024_1_1_0_0_n_n 512 rfl rfl).symm k) = ix2 p k := funext fun a => Fin.ext (by
    match a with
    | ⟨0, _⟩ => exact lhs1_axis_0 _ _
    | ⟨1, _⟩ => exact (lhs1_axis_1 _ _).trans hk)
  have er : dot_S2048x512_S1024x512_S2048x1024_1_1_0_0_n_n.rhsIdx (ix2 p r) ((contrEquiv1 dot_S2048x512_S1024x512_S2048x1024_1_1_0_0_n_n 512 rfl rfl).symm k) = ix2 r k := funext fun a => Fin.ext (by
    match a with
    | ⟨0, _⟩ => exact rhs1_axis_0 _ _
    | ⟨1, _⟩ => exact (rhs1_axis_1 _ _).trans hk)
  rw [el, er]
  refine congrArg₂ (· * ·) rfl (congrFun (shapeCast_self w _) _)

/-- The last store's value: the accumulator plus the bias row's entry of the column. -/
theorem k1_pay3_apply (acc : Vec Ideal S2048x1024 .f32) (b : Vec Ideal S1x1024 .f32) (p : Fin 2048) (r : Fin 1024) :
    k1_pay3 acc b (ix2 p r) = acc (ix2 p r) + b (ix2 0 r) := by
  unfold k1_pay3
  refine (addf_apply _ _ _).trans ?_
  refine congrArg₂ (· + ·) (congrFun (shapeCast_self acc _) _) ?_
  refine (broadcastTo_apply _ broadcasts_S1x1024_S2048x1024 (ix2 p r) (ix2 0 r) ?_).trans (congrFun (shapeCast_self b _) _)
  intro a
  match a with
  | ⟨0, _⟩ => show 0 = if (1 : Nat) = 1 then 0 else _; rw [if_pos rfl]
  | ⟨1, _⟩ => show r.val = if (1024 : Nat) = 1 then 0 else r.val; rw [if_neg (by decide)]

/-! ## The blocks, read off the arrays -/

/-- The x block of a point. -/
abbrev xblk1 (c : Dev nD) (t : Fin cfg1.N) : Vec Ideal S2048x512 .f32 := iblk1 V c 0 t
/-- The w block of a point. -/
abbrev wblk1 (c : Dev nD) (t : Fin cfg1.N) : Vec Ideal S1024x512 .bf16 := iblk1 V c 1 t
/-- The bias block of a point. -/
abbrev bblk1 (c : Dev nD) (t : Fin cfg1.N) : Vec Ideal S1x1024 .f32 := iblk1 V c 2 t
/-- The x array. -/
abbrev xarr1 (c : Dev nD) : S8192x4096.Idx → EReal := V c main_arg0
/-- The w array. -/
abbrev warr1 (c : Dev nD) : S4096x4096.Idx → EReal := V c main_v5
/-- The bias array. -/
abbrev barr1 (c : Dev nD) : S1x4096.Idx → EReal := V c main_v3

/-- The block indices at point `t` = 32 i + 8 j + kb: (i, kb), (j, kb), (0, j), (i, j). -/
theorem idx_facts1 : ∀ t : Fin cfg1.N, win1_0.index t (0 : Fin 2) = t.val / 32
    ∧ win1_0.index t (1 : Fin 2) = t.val % 8
    ∧ win1_1.index t (0 : Fin 2) = (t.val / 8) % 4
    ∧ win1_1.index t (1 : Fin 2) = t.val % 8
    ∧ win1_2.index t (0 : Fin 2) = 0
    ∧ win1_2.index t (1 : Fin 2) = (t.val / 8) % 4
    ∧ win1_3.index t (0 : Fin 2) = t.val / 32
    ∧ win1_3.index t (1 : Fin 2) = (t.val / 8) % 4 :=
  (by decide +kernel : ∀ t : Fin grid1.N, _)

/-- The x block's entry (p, k) is the array's at row 2048 i + p, column 512 kb + k. -/
theorem xblk1_apply (c : Dev nD) (t : Fin cfg1.N) (p : Fin 2048) (k : Fin 512) (R : Fin 8192) (K : Fin 4096)
    (hR : R.val = 2048 * (t.val / 32) + p.val) (hK : K.val = 512 * (t.val % 8) + k.val) :
    xblk1 V c t (ix2 p k) = xarr1 V c (ix2 R K) := by
  obtain ⟨e0, e1, -⟩ := idx_facts1 t
  show V c main_arg0 (((cfg1.win 0).blk t).view.emb (ix2 p k)) = V c main_arg0 (ix2 R K)
  refine congrArg _ (funext fun a => Fin.ext ?_)
  match a with
  | ⟨0, _⟩ => show win1_0.index t (0 : Fin 2) * 2048 + 1 * p.val = R.val; omega
  | ⟨1, _⟩ => show win1_0.index t (1 : Fin 2) * 512 + 1 * k.val = K.val; omega

/-- The w block's entry (r, k) is the array's at row 1024 j + r, column 512 kb + k. -/
theorem wblk1_apply (c : Dev nD) (t : Fin cfg1.N) (r : Fin 1024) (k : Fin 512) (O : Fin 4096) (K : Fin 4096)
    (hO : O.val = 1024 * ((t.val / 8) % 4) + r.val) (hK : K.val = 512 * (t.val % 8) + k.val) :
    wblk1 V c t (ix2 r k) = warr1 V c (ix2 O K) := by
  obtain ⟨-, -, e0, e1, -⟩ := idx_facts1 t
  show V c main_v5 (((cfg1.win 1).blk t).view.emb (ix2 r k)) = V c main_v5 (ix2 O K)
  refine congrArg _ (funext fun a => Fin.ext ?_)
  match a with
  | ⟨0, _⟩ => show win1_1.index t (0 : Fin 2) * 1024 + 1 * r.val = O.val; omega
  | ⟨1, _⟩ => show win1_1.index t (1 : Fin 2) * 512 + 1 * k.val = K.val; omega

/-- The bias block's entry (0, r) is the array's at column 1024 j + r. -/
theorem bblk1_apply (c : Dev nD) (t : Fin cfg1.N) (r : Fin 1024) (O : Fin 4096)
    (hO : O.val = 1024 * ((t.val / 8) % 4) + r.val) :
    bblk1 V c t (ix2 0 r) = barr1 V c (ix2 0 O) := by
  obtain ⟨-, -, -, -, e0, e1, -⟩ := idx_facts1 t
  show V c main_v3 (((cfg1.win 2).blk t).view.emb (ix2 0 r)) = V c main_v3 (ix2 0 O)
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * r.val = O.val; omega

/-! ## The accumulation over a run of eight points -/

/-- The contraction index of entry `k` of block `s`. -/
def kcol1 (s : ℕ) (k : Fin 512) : Fin 4096 := ⟨(512 * s + k.val) % 4096, Nat.mod_lt _ (by decide)⟩
/-- The array row of row `p` of the blocks of run `q`. -/
def rowOf1 (q : ℕ) (p : Fin 2048) : Fin 8192 := ⟨(2048 * (q / 4) + p.val) % 8192, Nat.mod_lt _ (by decide)⟩
/-- The array column of column `r` of the blocks of run `q`. -/
def colOf1 (q : ℕ) (r : Fin 1024) : Fin 4096 := ⟨(1024 * (q % 4) + r.val) % 4096, Nat.mod_lt _ (by decide)⟩

/-- Block `s`'s share of the product of row `R` of x and row `O` of w. -/
def part1 (c : Dev nD) (R : Fin 8192) (O : Fin 4096) (s : ℕ) : EReal :=
  ∑ k : Fin 512, xarr1 V c (ix2 R (kcol1 s k)) * warr1 V c (ix2 O (kcol1 s k))

/-- The accumulator at equal positions is the same. -/
theorem outsAt1_congr (c : Dev nD) {n m : ℕ} (e : n = m) (hn : n < cfg1.N) (hm : m < cfg1.N) :
    outsAt1 V c n hn = outsAt1 V c m hm := by
  subst e; rfl

/-- The product of a point's blocks at (p, r) is the point's block share. -/
theorem blocks_part1 (c : Dev nD) (q kb : ℕ) (hkb : kb < 8) (h : 8 * q + kb < cfg1.N) (p : Fin 2048) (r : Fin 1024) :
    ∑ k : Fin 512, xblk1 V c ⟨8 * q + kb, h⟩ (ix2 p k) * wblk1 V c ⟨8 * q + kb, h⟩ (ix2 r k)
      = part1 V c (rowOf1 q p) (colOf1 q r) kb := by
  have h' : 8 * q + kb < 128 := lt_of_lt_of_eq h N_1
  unfold part1
  refine Finset.sum_congr rfl fun k _ => ?_
  have hp := p.isLt
  have hr := r.isLt
  have hk := k.isLt
  refine congrArg₂ (· * ·) (xblk1_apply V c _ p k _ _ ?_ ?_) (wblk1_apply V c _ r k _ _ ?_ ?_)
  · show (2048 * (q / 4) + p.val) % 8192 = 2048 * ((8 * q + kb) / 32) + p.val; omega
  · show (512 * kb + k.val) % 4096 = 512 * ((8 * q + kb) % 8) + k.val; omega
  · show (1024 * (q % 4) + r.val) % 4096 = 1024 * (((8 * q + kb) / 8) % 4) + r.val; omega
  · show (512 * kb + k.val) % 4096 = 512 * ((8 * q + kb) % 8) + k.val; omega

/-- Within a run, after the point at offset `kb` < 7 the block holds the shares of blocks 0 … kb. -/
theorem run_partial1 (c : Dev nD) (q : ℕ) (p : Fin 2048) (r : Fin 1024) :
    ∀ (kb : ℕ) (hkb : kb ≤ 6) (h : 8 * q + kb < cfg1.N),
      outsAt1 V c (8 * q + kb) h (ix2 p r) = ∑ s ∈ Finset.range (kb + 1), part1 V c (rowOf1 q p) (colOf1 q r) s
  | 0, _, h => by
    refine (congrFun (outsAt1_A V c ⟨8 * q + 0, h⟩ (by show (8 * q + 0) % 8 = 0; omega)) (ix2 p r)).trans ?_
    refine (k1_pay2_apply _ _ _ p r).trans ?_
    rw [k1_pay1_apply, zero_add, Finset.sum_range_one]
    exact blocks_part1 V c q 0 (by omega) h p r
  | kb + 1, hkb, h => by
    have ih := run_partial1 c q p r kb (by omega) (Nat.lt_of_succ_lt h)
    refine (congrFun (outsAt1_B V c ⟨8 * q + (kb + 1), h⟩ (by show ¬(8 * q + (kb + 1)) % 8 = 0; omega) (by show ¬(8 * q + (kb + 1)) % 8 = 7; omega)) (ix2 p r)).trans ?_
    refine (k1_pay2_apply _ _ _ p r).trans ?_
    rw [Finset.sum_range_succ]
    refine congrArg₂ (· + ·) ((congrFun (outsAt1_congr V c rfl _ _) _).trans ih) ?_
    exact blocks_part1 V c q (kb + 1) (by omega) h p r

/-- After the last point of a run the block holds all eight shares and the bias entry. -/
theorem run_last1 (c : Dev nD) (q : ℕ) (p : Fin 2048) (r : Fin 1024) (h : 8 * q + 7 < cfg1.N) :
    outsAt1 V c (8 * q + 7) h (ix2 p r)
      = (∑ s ∈ Finset.range 8, part1 V c (rowOf1 q p) (colOf1 q r) s) + barr1 V c (ix2 0 (colOf1 q r)) := by
  have h' : 8 * q + 7 < 128 := lt_of_lt_of_eq h N_1
  have ih := run_partial1 V c q p r 6 (by omega) (Nat.lt_of_succ_lt h)
  refine (congrFun (outsAt1_C V c ⟨8 * q + 7, h⟩ (by show (8 * q + 7) % 8 = 7; omega)) (ix2 p r)).trans ?_
  refine (k1_pay3_apply _ _ p r).trans ?_
  have hr := r.isLt
  refine congrArg₂ (· + ·) ?_ (bblk1_apply V c _ r _ (by show (1024 * (q % 4) + r.val) % 4096 = 1024 * (((8 * q + 7) / 8) % 4) + r.val; omega))
  refine (k1_pay2_apply _ _ _ p r).trans ?_
  rw [Finset.sum_range_succ]
  refine congrArg₂ (· + ·) ((congrFun (outsAt1_congr V c rfl _ _) _).trans ih) ?_
  exact blocks_part1 V c q 7 (by omega) h p r

/-- The eight blocks' shares regroup into the sum over all 4096 contraction indices. -/
theorem sum_blocks1 (f : Fin 4096 → EReal) : ∑ s ∈ Finset.range 8, ∑ k : Fin 512, f (kcol1 s k) = ∑ K : Fin 4096, f K := by
  rw [← Fin.sum_univ_eq_sum_range (fun s => ∑ k : Fin 512, f (kcol1 s k)) 8]
  rw [← Equiv.sum_comp (finProdFinEquiv (m := 8) (n := 512)) f, Fintype.sum_prod_type]
  refine Finset.sum_congr rfl fun s _ => Finset.sum_congr rfl fun k _ => congrArg f (Fin.ext ?_)
  have hs := s.isLt
  have hk := k.isLt
  show (512 * s.val + k.val) % 4096 = k.val + 512 * s.val
  omega

/-! ## From the blocks to the array -/

/-- The result: each row of x against each row of w, plus the bias. -/
abbrev whole1 (c : Dev nD) : S8192x4096.Idx → EReal :=
  fun i => Spec.lin (fun t k => V c main_arg0 (ix2 t k)) (fun o k => V c main_v5 (ix2 o k))
    (fun o => V c main_v3 (ix2 0 o)) (i 0) (i 1)

/-- At a point that ends a run, the block's entry (p, r) is the result's at row 2048 i + p, column 1024 j + r. -/
theorem last_apply1 (c : Dev nD) (t : Fin cfg1.N) (h7 : t.val % 8 = 7) (p : Fin 2048) (r : Fin 1024)
    (i : S8192x4096.Idx) (h0 : (i 0).val = 2048 * (t.val / 32) + p.val) (h1 : (i 1).val = 1024 * ((t.val / 8) % 4) + r.val) :
    outsAt1 V c t.val t.isLt (ix2 p r) = whole1 V c i := by
  have hN : t.val < 128 := lt_of_lt_of_eq t.isLt N_1
  have hp := p.isLt
  have hr := r.isLt
  have ht : 8 * (t.val / 8) + 7 < cfg1.N := by rw [show 8 * (t.val / 8) + 7 = t.val from by omega]; exact t.isLt
  refine (congrFun (outsAt1_congr V c (by omega) t.isLt ht) _).trans ?_
  refine (run_last1 V c (t.val / 8) p r ht).trans ?_
  have eR : rowOf1 (t.val / 8) p = i 0 := Fin.ext (by show (2048 * (t.val / 8 / 4) + p.val) % 8192 = (i 0).val; omega)
  have eO : colOf1 (t.val / 8) r = i 1 := Fin.ext (by show (1024 * (t.val / 8 % 4) + r.val) % 4096 = (i 1).val; omega)
  rw [eR, eO]
  show (∑ s ∈ Finset.range 8, ∑ k : Fin 512, xarr1 V c (ix2 (i 0) (kcol1 s k)) * warr1 V c (ix2 (i 1) (kcol1 s k))) + _ = _
  rw [sum_blocks1 (fun K => xarr1 V c (ix2 (i 0) K) * warr1 V c (ix2 (i 1) K))]
  rfl

/-- What a point that ends a run writes back is its block of the result. -/
theorem flushed_eq1_3 (c : Dev nD) (t : Fin cfg1.N) (hf : (cfg1.win 3).flush t = true) :
    (dat1 (F := Ideal) V c).flushed 3 t = ((cfg1.win 3).blk t).view.read (Elt Ideal) (whole1 V c) := by
  have h7 : t.val % 8 = 7 := (flush1_3 t).mp hf
  obtain ⟨-, -, -, -, -, -, e0, e1⟩ := idx_facts1 t
  show (cfg1.win 3).cut (grid1.coords t) ((dat1 V c).after 3 t) = _
  rw [after1_3]
  funext j
  have ej : (cfg1.win 3).xinj (grid1.coords t) j = ix2 (n0 := 2048) (n1 := 1024) (j 0) (j 1) :=
    funext fun a => Fin.ext (by match a with | ⟨0, _⟩ => rfl | ⟨1, _⟩ => rfl)
  show outsAt1 V c t.val t.isLt ((cfg1.win 3).xinj (grid1.coords t) j) = whole1 V c (((cfg1.win 3).blk t).view.emb j)
  rw [ej]
  refine last_apply1 V c t h7 (j 0) (j 1) _ ?_ ?_
  · show win1_3.index t (0 : Fin 2) * 2048 + 1 * (j 0).val = 2048 * (t.val / 32) + (j 0).val; omega
  · show win1_3.index t (1 : Fin 2) * 1024 + 1 * (j 1).val = 1024 * ((t.val / 8) % 4) + (j 1).val; omega

/-- An index of the array is in a point's output block iff each coordinate is in the block's range. -/
theorem mem_blk1_3 (t : Fin cfg1.N) (i : S8192x4096.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v6).slice (win1_3.rect t)).set ↔ _
  rw [View.set_slice_whole, Rect.mem_set_unit]
  exact Iff.rfl

/-- Every index of the array is in the block of a point that writes back: row R, column O in that of
    the last point of the run with i = R / 2048, j = O / 1024. -/
theorem covered1_3 (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hlt : 32 * ((i 0).val / 2048) + 8 * ((i 1).val / 1024) + 7 < cfg1.N := by
    rw [show cfg1.N = 128 from N_1]; omega
  refine ⟨⟨32 * ((i 0).val / 2048) + 8 * ((i 1).val / 1024) + 7, hlt⟩, (flush1_3 _).mpr (by show (32 * ((i 0).val / 2048) + 8 * ((i 1).val / 1024) + 7) % 8 = 7; omega), ?_⟩
  obtain ⟨-, -, -, -, -, -, e0, e1⟩ := idx_facts1 ⟨32 * ((i 0).val / 2048) + 8 * ((i 1).val / 1024) + 7, hlt⟩
  rw [mem_blk1_3]
  intro a
  match a with
  | ⟨0, _⟩ =>
    show win1_3.index _ (0 : Fin 2) * 2048 ≤ (i 0).val ∧ (i 0).val < win1_3.index _ (0 : Fin 2) * 2048 + 2048
    rw [e0]
    show (32 * ((i 0).val / 2048) + 8 * ((i 1).val / 1024) + 7) / 32 * 2048 ≤ (i 0).val ∧ (i 0).val < (32 * ((i 0).val / 2048) + 8 * ((i 1).val / 1024) + 7) / 32 * 2048 + 2048
    omega
  | ⟨1, _⟩ =>
    show win1_3.index _ (1 : Fin 2) * 1024 ≤ (i 1).val ∧ (i 1).val < win1_3.index _ (1 : Fin 2) * 1024 + 1024
    rw [e1]
    show (32 * ((i 0).val / 2048) + 8 * ((i 1).val / 1024) + 7) / 8 % 4 * 1024 ≤ (i 1).val ∧ (i 1).val < (32 * ((i 0).val / 2048) + 8 * ((i 1).val / 1024) + 7) / 8 % 4 * 1024 + 1024
    omega

/-- What region 1 leaves in its output array. -/
theorem arrAt1_3 (c : Dev nD) : (dat1 (F := Ideal) V c).arrAt 3 cfg1.N
    = fun i : S8192x4096.Idx => Spec.lin (fun t k => V c main_arg0 (ix2 t k)) (fun o k => V c main_v5 (ix2 o k))
        (fun o => V c main_v3 (ix2 0 o)) (i 0) (i 1) :=
  (dat1 (F := Ideal) V c).arrAt_eq_of_cover 3 (whole1 V c) (flushed_eq1_3 V c) covered1_3

end Cert.KernelIdeal.Hand

end
-- ==== Proof.KI.KerValue.lean ====
/-
  The whole program's result over the extended reals, as a function of the five argument arrays: the matrix-product
  region's value, read through the reshapes between the items, with the dequantisation region's value in the weight
  operand. Row `o` of the reshaped weights is row `o % 2048` of slab `o / 2048` of the stacked array; entry (r, k) of
  the reshaped packed words is entry (r * 64 + k / 64, k % 64) of the argument; entry (o, g) of the reshaped scales
  (zero points) is entry (o * 64 + g, 0) of the argument; the bias row is the bias vector.
-/
import proofs.«420662_j35562329211254_3_alg».proof.Proof.KI.Vals
import proofs.«420662_j35562329211254_3_alg».proof.Proof.Gen.KernelIdeal.Regions
import proofs.«420662_j35562329211254_3_alg».proof.Proof.KI.Val0
import proofs.«420662_j35562329211254_3_alg».proof.Proof.KI.Val1
import proofs.«420662_j35562329211254_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-! ## The reshapes between the items, read at an index -/

/-- A 131072 x 64 array read as 2048 x 4096: entry (r, k) is entry (r * 64 + k / 64, k % 64). -/
theorem cast_words_apply {α : Type} (x : S131072x64.Idx → α) (r : Fin 2048) (k : Fin 4096) :
    shapeCast S2048x4096 x shapeCasts_S131072x64_S2048x4096 (ix2 r k)
      = x (ix2 (⟨r.val * 64 + k.val / 64, by omega⟩ : Fin 131072) (⟨k.val % 64, by omega⟩ : Fin 64)) :=
  shapeCast_apply x _ _ _ (by
    rw [Shape.rowMajor_val_two, Shape.rowMajor_val_two]
    show (r.val * 64 + k.val / 64) * 64 + k.val % 64 = r.val * 4096 + k.val
    omega)

/-- A 262144 x 1 array read as 4096 x 64: entry (o, g) is entry (o * 64 + g, 0). -/
theorem cast_groups_apply {α : Type} (x : S262144x1.Idx → α) (o : Fin 4096) (g : Fin 64) :
    shapeCast S4096x64 x shapeCasts_S262144x1_S4096x64 (ix2 o g)
      = x (ix2 (⟨o.val * 64 + g.val, by omega⟩ : Fin 262144) (0 : Fin 1)) :=
  shapeCast_apply x _ _ _ (by
    rw [Shape.rowMajor_val_two, Shape.rowMajor_val_two]
    show (o.val * 64 + g.val) * 1 + 0 = o.val * 64 + g.val
    omega)

/-- A 2 x 2048 x 4096 array read as 4096 x 4096: row `o` is row `o % 2048` of slab `o / 2048`. -/
theorem cast_slabs_apply {α : Type} (x : S2x2048x4096.Idx → α) (o k : Fin 4096) :
    shapeCast S4096x4096 x shapeCasts_S2x2048x4096_S4096x4096 (ix2 o k)
      = x (ix3 (⟨o.val / 2048, by omega⟩ : Fin 2) (⟨o.val % 2048, by omega⟩ : Fin 2048) k) :=
  shapeCast_apply x _ _ _ (by
    rw [Shape.rowMajor_val_three, Shape.rowMajor_val_two]
    show (o.val / 2048 * 2048 + o.val % 2048) * 4096 + k.val = o.val * 4096 + k.val
    omega)

/-! ## What the host stretches leave -/

/-- The packed words after the first stretch: the argument reshaped. -/
theorem W1_v0 (c : Dev nD) : (W1 m c main_v0 : S2048x4096.Idx → BitVec 32)
    = shapeCast S2048x4096 (m ((c : Thread nD τ).loc main_arg1)) shapeCasts_S131072x64_S2048x4096 := by
  show StableHlo.after hostOps0 _ (Proc.devRef .tc main_v0) = _
  after_results
  rfl

/-- The scales after the first stretch. -/
theorem W1_v1 (c : Dev nD) : (W1 m c main_v1 : S4096x64.Idx → EReal)
    = shapeCast S4096x64 (m ((c : Thread nD τ).loc main_arg2)) shapeCasts_S262144x1_S4096x64 := by
  show StableHlo.after hostOps0 _ (Proc.devRef .tc main_v1) = _
  after_results
  rfl

/-- The zero points after the first stretch. -/
theorem W1_v2 (c : Dev nD) : (W1 m c main_v2 : S4096x64.Idx → EReal)
    = shapeCast S4096x64 (m ((c : Thread nD τ).loc main_arg3)) shapeCasts_S262144x1_S4096x64 := by
  show StableHlo.after hostOps0 _ (Proc.devRef .tc main_v2) = _
  after_results
  rfl

/-- The bias row after the first stretch. -/
theorem W1_v3 (c : Dev nD) : (W1 m c main_v3 : S1x4096.Idx → EReal)
    = shapeCast S1x4096 (m ((c : Thread nD τ).loc main_arg4)) shapeCasts_S4096_S1x4096 := by
  show StableHlo.after hostOps0 _ (Proc.devRef .tc main_v3) = _
  after_results
  rfl

/-- The weight operand after the second stretch: the stacked array reshaped. -/
theorem W3_v5 (c : Dev nD) : (W3 m c main_v5 : S4096x4096.Idx → EReal)
    = shapeCast S4096x4096 (W2 m c main_v4) shapeCasts_S2x2048x4096_S4096x4096 := by
  show StableHlo.after hostOps1 _ (Proc.devRef .tc main_v5) = _
  after_results
  rfl

/-! ## The three operands of the matrix-product region -/

theorem V1_v0_apply (c : Dev nD) (r : Fin 2048) (k : Fin 4096) :
    (V1 m c main_v0 : S2048x4096.Idx → BitVec 32) (ix2 r k)
      = m ((c : Thread nD τ).loc main_arg1) (ix2 (⟨r.val * 64 + k.val / 64, by omega⟩ : Fin 131072) (⟨k.val % 64, by omega⟩ : Fin 64)) := by
  show (W1 m c main_v0 : S2048x4096.Idx → BitVec 32) (ix2 r k) = _
  rw [W1_v0]; exact cast_words_apply _ r k

theorem V1_v1_apply (c : Dev nD) (o : Fin 4096) (g : Fin 64) :
    (V1 m c main_v1 : S4096x64.Idx → EReal) (ix2 o g)
      = m ((c : Thread nD τ).loc main_arg2) (ix2 (⟨o.val * 64 + g.val, by omega⟩ : Fin 262144) (0 : Fin 1)) := by
  show (W1 m c main_v1 : S4096x64.Idx → EReal) (ix2 o g) = _
  rw [W1_v1]; exact cast_groups_apply _ o g

theorem V1_v2_apply (c : Dev nD) (o : Fin 4096) (g : Fin 64) :
    (V1 m c main_v2 : S4096x64.Idx → EReal) (ix2 o g)
      = m ((c : Thread nD τ).loc main_arg3) (ix2 (⟨o.val * 64 + g.val, by omega⟩ : Fin 262144) (0 : Fin 1)) := by
  show (W1 m c main_v2 : S4096x64.Idx → EReal) (ix2 o g) = _
  rw [W1_v2]; exact cast_groups_apply _ o g

/-- No item before the matrix-product region writes the activations. -/
theorem V3_arg0 (c : Dev nD) : V3 m c main_arg0 = m ((c : Thread nD τ).loc main_arg0) := by
  show W3 m c main_arg0 = _
  have e3 : W3 m c main_arg0 = W2 m c main_arg0 := StableHlo.after_of_writes_sub hostOps1 _ hostOps1_writes (by decide)
  have e1 : W1 m c main_arg0 = W0 m c main_arg0 := StableHlo.after_of_writes_sub hostOps0 _ hostOps0_writes (by decide)
  rw [e3, W2_of_ne m c main_arg0 (by decide), e1]

/-- The bias row is the bias vector: written by the first stretch, untouched afterwards. -/
theorem V3_v3_apply (c : Dev nD) (u : Fin 1) (o : Fin 4096) :
    (V3 m c main_v3 : S1x4096.Idx → EReal) (ix2 u o) = m ((c : Thread nD τ).loc main_arg4) (ix1 o) := by
  show (W3 m c main_v3 : S1x4096.Idx → EReal) (ix2 u o) = _
  have e3 : W3 m c main_v3 = W2 m c main_v3 := StableHlo.after_of_writes_sub hostOps1 _ hostOps1_writes (by decide)
  rw [e3, W2_of_ne m c main_v3 (by decide), W1_v3]
  exact shapeCast_a_1a_apply _ _ u o

/-- Row `o` of the weight operand is row `o % 2048` of slab `o / 2048` of what the dequantisation region leaves. -/
theorem V3_v5_apply (c : Dev nD) (o k : Fin 4096) :
    (V3 m c main_v5 : S4096x4096.Idx → EReal) (ix2 o k)
      = deqK (fun r k => V1 m c main_v0 (ix2 r k)) (fun o g => V1 m c main_v1 (ix2 o g)) (fun o g => V1 m c main_v2 (ix2 o g))
          (⟨o.val / 2048, by omega⟩ : Fin 2) (⟨o.val % 2048, by omega⟩ : Fin 2048) k := by
  show (W3 m c main_v5 : S4096x4096.Idx → EReal) (ix2 o k) = _
  rw [W3_v5, cast_slabs_apply, W2_out, arrAt0_5 (V1 m) c]

/-! ## The weight entry and the result -/

/-- Entry (o, k) of the weight operand is the dequantised weight of the mathematics: slab `o / 2048`, row `o % 2048`
    is row `o` again, since `(o / 2048) * 2048 + o % 2048 = o`. -/
theorem weight_apply (c : Dev nD) (o k : Fin 4096) :
    (V3 m c main_v5 : S4096x4096.Idx → EReal) (ix2 o k)
      = Spec.wgt Spec.nibK (fun g e => m ((c : Thread nD τ).loc main_arg1) (ix2 g e))
          (fun g => m ((c : Thread nD τ).loc main_arg2) (ix2 g 0)) (fun g => m ((c : Thread nD τ).loc main_arg3) (ix2 g 0)) o k := by
  rw [V3_v5_apply]
  unfold deqK Spec.wgt
  dsimp only
  rw [V1_v0_apply, V1_v1_apply, V1_v2_apply]
  dsimp only
  have e : (o.val / 2048 * 2048 + o.val % 2048) * 64 + k.val / 64 = o.val * 64 + k.val / 64 := by omega
  simp only [e]

/-- The matrix-product region's value at token `t`, output feature `o`, with its three operands read back to the
    arguments, is the result of the mathematics there. -/
theorem out_apply (c : Dev nD) (t : Fin 8192) (o : Fin 4096) :
    Spec.lin (fun t k => V3 m c main_arg0 (ix2 t k)) (fun o k => V3 m c main_v5 (ix2 o k)) (fun o => V3 m c main_v3 (ix2 0 o)) t o
      = Spec.out Spec.nibK (fun t k => m ((c : Thread nD τ).loc main_arg0) (ix2 t k))
          (fun g e => m ((c : Thread nD τ).loc main_arg1) (ix2 g e))
          (fun g => m ((c : Thread nD τ).loc main_arg2) (ix2 g 0)) (fun g => m ((c : Thread nD τ).loc main_arg3) (ix2 g 0))
          (fun o => m ((c : Thread nD τ).loc main_arg4) (ix1 o)) t o := by
  unfold Spec.out Spec.lin
  dsimp only
  rw [V3_v3_apply, V3_arg0]
  refine congrArg (· + _) (Finset.sum_congr rfl fun k _ => ?_)
  rw [weight_apply]

/-- What the program leaves in its result array. -/
theorem ker_value (c : Dev nD) : W4 m c main_v6
    = fun i : S8192x4096.Idx => Spec.out Spec.nibK (fun t k => m ((c : Thread nD τ).loc main_arg0) (ix2 t k))
        (fun g e => m ((c : Thread nD τ).loc main_arg1) (ix2 g e))
        (fun g => m ((c : Thread nD τ).loc main_arg2) (ix2 g 0)) (fun g => m ((c : Thread nD τ).loc main_arg3) (ix2 g 0))
        (fun o => m ((c : Thread nD τ).loc main_arg4) (ix1 o)) (i 0) (i 1) := by
  rw [W4_out, arrAt1_3 (V3 m) c]
  funext i
  exact out_apply m c (i 0) (i 1)

end Cert.KernelIdeal.Hand

end
-- ==== Proof.Ref.lean ====
/-
  The reference's result over the extended reals, index by index: at row `t`, column `o` it is the sum over the
  contraction index of x[t, k] times the dequantised weight (o, k) — the code of the packed word of group
  `o * 64 + k / 64` (the shifted word for the first 131072 groups, the masked word for the rest), minus the group's
  zero point, times its scale — plus the bias entry `o`.
-/
import proofs.«420662_j35562329211254_3_alg».proof.Proof.Gen.ReferenceIdeal.Read
import proofs.«420662_j35562329211254_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The joined array at a row below the first extent is the first operand at that row. -/
theorem v6_lo (x1 : IVec S131072x64 32) (g : Fin 262144) (e : Fin 64) (hg : g.val < 131072) :
    val_main_v6 (F := Ideal) x1 (ix2 g e) = val_main_v2 (F := Ideal) x1 (ix2 ⟨g.val, hg⟩ e) := by
  unfold val_main_v6
  refine concatenate_pair_apply_left (t := S262144x64) (s₁ := S131072x64) (s₂ := S131072x64) 0 _ _ _ _ rfl _ ?_
  intro b
  match b with
  | ⟨0, _⟩ => rfl
  | ⟨1, _⟩ => rfl

/-- The joined array at a row from the first extent on is the second operand, the first extent less. -/
theorem v6_hi (x1 : IVec S131072x64 32) (g : Fin 262144) (e : Fin 64) (hg : 131072 ≤ g.val) :
    val_main_v6 (F := Ideal) x1 (ix2 g e)
      = val_main_v5 (F := Ideal) x1 (ix2 ⟨g.val - 131072, by have := g.isLt; omega⟩ e) := by
  unfold val_main_v6
  refine concatenate_pair_apply_right (t := S262144x64) (s₁ := S131072x64) (s₂ := S131072x64) 0 _ _ _ _ rfl rfl _ ?_ ?_
  · intro b hb
    match b with
    | ⟨0, _⟩ => exact absurd rfl hb
    | ⟨1, _⟩ => rfl
  · exact Nat.sub_add_cancel hg

/-- The shifted words' floats at an index. -/
theorem v2_at (x1 : IVec S131072x64 32) (i : S131072x64.Idx) :
    val_main_v2 (F := Ideal) x1 i = Spec.ofWord (IntOp.shrsi .host (x1 i) 4#32) := by
  rw [val_main_v2_apply, val_main_v1_apply, val_main_v0_apply, val_main_c_apply]
  rfl

/-- The masked words' floats at an index. -/
theorem v5_at (x1 : IVec S131072x64 32) (i : S131072x64.Idx) :
    val_main_v5 (F := Ideal) x1 i = Spec.ofWord (IntOp.andi (x1 i) 15#32) := by
  rw [val_main_v5_apply, val_main_v4_apply, val_main_v3_apply, val_main_c_0_apply]
  rfl

/-- The joined array at row g, column e: the code of half g / 131072 of the word at row g % 131072. -/
theorem v6_at (x1 : IVec S131072x64 32) (g : Fin 262144) (e : Fin 64) (h : Fin 2) (r : Fin 131072)
    (hh : h.val = g.val / 131072) (hr : r.val = g.val % 131072) :
    val_main_v6 (F := Ideal) x1 (ix2 g e) = Spec.ofWord (Spec.nibR h (x1 (ix2 r e))) := by
  have hgl := g.isLt
  by_cases hg : g.val < 131072
  · have er : ∀ P, (⟨g.val, P⟩ : Fin 131072) = r := fun P => Fin.ext (by show g.val = r.val; omega)
    rw [v6_lo x1 g e hg, v2_at, er]
    unfold Spec.nibR
    rw [if_pos (by omega)]
  · have er : ∀ P, (⟨g.val - 131072, P⟩ : Fin 131072) = r := fun P => Fin.ext (by show g.val - 131072 = r.val; omega)
    rw [v6_hi x1 g e (Nat.le_of_not_lt hg), v5_at, er]
    unfold Spec.nibR
    rw [if_neg (by omega)]

/-- The dequantised group entry: code minus zero point, times scale. -/
theorem v10_at (x1 : IVec S131072x64 32) (x2 x3 : FVec Ideal S262144x1 .f32) (g : Fin 262144) (e : Fin 64)
    (h : Fin 2) (r : Fin 131072) (hh : h.val = g.val / 131072) (hr : r.val = g.val % 131072) :
    val_main_v10 (F := Ideal) x1 x2 x3 (ix2 g e)
      = (Spec.ofWord (Spec.nibR h (x1 (ix2 r e))) - x3 (ix2 g 0)) * x2 (ix2 g 0) := by
  have e7 : idx_main_v7 (ix2 g e) = ix2 g 0 := funext fun a => Fin.ext (by
    match a with
    | ⟨0, _⟩ => rfl
    | ⟨1, _⟩ => rfl)
  have e9 : idx_main_v9 (ix2 g e) = ix2 g 0 := funext fun a => Fin.ext (by
    match a with
    | ⟨0, _⟩ => rfl
    | ⟨1, _⟩ => rfl)
  rw [val_main_v10_apply, val_main_v8_apply, val_main_v9_apply, val_main_v7_apply, e7, e9,
    v6_at x1 g e h r hh hr, Ideal.mulf_def, Ideal.subf_def]

/-- The transposed weight matrix at (k, o) is the specification's weight (o, k). -/
theorem v12_at (x1 : IVec S131072x64 32) (x2 x3 : FVec Ideal S262144x1 .f32) (k o : Fin 4096) :
    val_main_v12 (F := Ideal) x1 x2 x3 (ix2 k o)
      = Spec.wgt Spec.nibR (fun g e => x1 (ix2 g e)) (fun g => x2 (ix2 g 0)) (fun g => x3 (ix2 g 0)) o k := by
  have hk := k.isLt
  have ho := o.isLt
  have e : idx_main_v11 (idx_main_v12 (ix2 k o))
      = ix2 (⟨o.val * 64 + k.val / 64, by omega⟩ : Fin 262144) (⟨k.val % 64, by omega⟩ : Fin 64) :=
    funext fun a => Fin.ext (by
      match a with
      | ⟨0, _⟩ => show (o.val * 4096 + k.val) / 64 = o.val * 64 + k.val / 64; omega
      | ⟨1, _⟩ => show (o.val * 4096 + k.val) % 64 = k.val % 64; omega)
  rw [val_main_v12_apply, val_main_v11_apply, e]
  unfold Spec.wgt
  exact v10_at x1 x2 x3 _ _ ⟨o.val / 2048, by omega⟩ ⟨(o.val % 2048) * 64 + k.val / 64, by omega⟩
    (by show o.val / 2048 = (o.val * 64 + k.val / 64) / 131072; omega)
    (by show (o.val % 2048) * 64 + k.val / 64 = (o.val * 64 + k.val / 64) % 131072; omega)

/-- The reference's last stage, as a function of the arguments, is the specification with the unmasked high code. -/
theorem result_eq (x0 : FVec Ideal S8192x4096 .f32) (x1 : IVec S131072x64 32) (x2 x3 : FVec Ideal S262144x1 .f32)
    (x4 : FVec Ideal S4096 .f32) :
    val_main_v16 (F := Ideal) x0 x1 x2 x3 x4
      = fun i : S8192x4096.Idx => Spec.out Spec.nibR (fun t k => x0 (ix2 t k)) (fun g e => x1 (ix2 g e))
          (fun g => x2 (ix2 g 0)) (fun g => x3 (ix2 g 0)) (fun o => x4 (ix1 o)) (i 0) (i 1) := by
  funext i
  obtain ⟨t, o, rfl⟩ : ∃ (t : Fin 8192) (o : Fin 4096), i = ix2 t o := ⟨i 0, i 1, eq_ix2 i⟩
  have e4 : idx_main_v14 (idx_main_v15 (ix2 t o)) = ix1 o := funext fun a => Fin.ext (by
    match a with
    | ⟨0, _⟩ => rfl)
  rw [val_main_v16_apply, val_main_v13_apply, val_main_v15_apply, val_main_v14_apply, e4, Ideal.addf_def]
  show _ = Spec.out Spec.nibR (fun t k => x0 (ix2 t k)) (fun g e => x1 (ix2 g e))
          (fun g => x2 (ix2 g 0)) (fun g => x3 (ix2 g 0)) (fun o => x4 (ix1 o)) t o
  unfold Spec.out Spec.lin
  refine congrArg (· + x4 (ix1 o)) (Finset.sum_congr rfl fun k _ => ?_)
  have el : lidx_main_v13 (ix2 t o) k = ix2 t k := funext fun a => Fin.ext (by
    match a with
    | ⟨0, _⟩ => rfl
    | ⟨1, _⟩ => rfl)
  have er : ridx_main_v13 (ix2 t o) k = ix2 k o := funext fun a => Fin.ext (by
    match a with
    | ⟨0, _⟩ => rfl
    | ⟨1, _⟩ => rfl)
  rw [el, er, v12_at]

end Cert.ReferenceIdeal.RefValue

end
-- ==== Proof.PreRead.lean ====
/-
  What the precondition says of the packed words: every one of them lies in the byte range 0 … 255.
-/
import proofs.«420662_j35562329211254_3_alg».proof.Defs
import proofs.«420662_j35562329211254_3_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.PreRead

open Idealize.ShloMosaic Cert.Pre_finite_inputs

/-- The scalar shape has one index. -/
instance subsingleton_S_Idx : Subsingleton S_.Idx := ⟨fun a b => funext fun d => d.elim0⟩

/-- A word that compares at least 0 and at most 255, signed, has its signed value in that range. -/
theorem word_range (w : BitVec 32) (hge : IntOp.cmpi .sge w 0#32 = 1#1) (hle : IntOp.cmpi .sle w 255#32 = 1#1) :
    0 ≤ w.toInt ∧ w.toInt ≤ 255 := by
  unfold IntOp.cmpi at hge hle
  rw [StableHlo.Predicate.ofBool_eq_one_iff] at hge hle
  simp only [BitVec.sle, decide_eq_true_eq] at hge hle
  have e0 : (0#32).toInt = 0 := by decide
  have e255 : (255#32).toInt = 255 := by decide
  rw [e0] at hge
  rw [e255] at hle
  exact ⟨hge, hle⟩

/-- A scalar constant broadcast over the packed words reads the constant at every index. -/
theorem bcast_const (c : BitVec 32) (i : S131072x64.Idx) :
    broadcastInDim S131072x64 ![] Facts.bcast_S_S131072x64 (constantI S_ 32 c) i = c :=
  StableHlo.Predicate.bcast_scalar Facts.bcast_S_S131072x64 Facts.h_S_ (constantI S_ 32 c) i

/-- Where the precondition holds, every packed word is at least 0 and at most 255 as a signed integer. -/
theorem wq_range {F : FTy → Type} [FloatOps F] (a0 : FVec F S8192x4096 .f32) (a1 : IVec S131072x64 32)
    (a2 a3 : FVec F S262144x1 .f32) (a4 : FVec F S4096 .f32)
    (h : Cert.Pre_finite_inputs.fn (F := F) a0 a1 a2 a3 a4 = fun _ => 1#1) :
    ∀ i : S131072x64.Idx, 0 ≤ (a1 i).toInt ∧ (a1 i).toInt ≤ 255 := by
  intro i
  have h0 := congrFun h ValueIdx.ix0
  dsimp only [fn, fn_part1] at h0
  have h24 := (IntOp.andi_eq_one.1 h0).2
  have hall := Host.reduce_andi_all _ _ _ _ _ h24 i
  obtain ⟨hge, hle⟩ := IntOp.andi_eq_one.1 hall
  change IntOp.cmpi .sge (a1 i) (broadcastInDim S131072x64 ![] Facts.bcast_S_S131072x64 (constantI S_ 32 0#32) i) = 1#1 at hge
  change IntOp.cmpi .sle (a1 i) (broadcastInDim S131072x64 ![] Facts.bcast_S_S131072x64 (constantI S_ 32 255#32) i) = 1#1 at hle
  rw [bcast_const] at hge hle
  exact word_range (a1 i) hge hle

end Cert.PreRead

end
-- ==== Proof.lean ====
/-
  The certificate: a 4-bit groupwise dequantisation followed by a matrix product with bias, against the plain
  reference. Each frame is a run of the program read at its arguments: the two-region program's by the launch over its
  four items (at the word level and over the extended reals, the same text), the reference's by its operations' run.
  The idealisation rewrote nothing, so the preservation claim is empty. Over the extended reals both programs end with
  x times the transposed dequantised weights plus the bias; the product region adds eight partial sums to a zero block
  where the reference takes one sum, and sums of extended reals regroup freely; the two programs read the high 4-bit
  code of a packed word differently — one masks the shifted word, the other does not — and agree because the
  precondition keeps every packed word in the byte range 0 … 255.
-/
import proofs.«420662_j35562329211254_3_alg».proof.Defs
import proofs.«420662_j35562329211254_3_alg».proof.Proof.Gen.Kernel
import proofs.«420662_j35562329211254_3_alg».proof.Proof.Gen.KernelIdeal
import proofs.«420662_j35562329211254_3_alg».proof.Proof.Gen.ReferenceIdeal
import proofs.«420662_j35562329211254_3_alg».proof.Proof.Gen.Pre_finite_inputs
import proofs.«420662_j35562329211254_3_alg».proof.Proof.Gen.ReferenceIdeal.Run
import proofs.«420662_j35562329211254_3_alg».proof.Proof.Gen.ReferenceIdeal.Read
import proofs.«420662_j35562329211254_3_alg».proof.Proof.KW.Run
import proofs.«420662_j35562329211254_3_alg».proof.Proof.KI.Run
import proofs.«420662_j35562329211254_3_alg».proof.Proof.KI.KerValue
import proofs.«420662_j35562329211254_3_alg».proof.Proof.Ref
import proofs.«420662_j35562329211254_3_alg».proof.Proof.PreRead
import proofs.«420662_j35562329211254_3_alg».proof.Proof.Spec
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ =>
  (θ_run Cert.Kernel.defs _ _).mono (fun _ h c => (h c).2) (Cert.Kernel.Hand.run_main (F := Bits) m ρ)

/-- So does the idealised program. -/
theorem frame_ki : Cert.frame_KernelIdeal := fun m ρ _ =>
  (θ_run Cert.KernelIdeal.defs _ _).mono (fun _ h c => (h c).2) (Cert.KernelIdeal.Hand.run_main (F := Ideal) m ρ)

/-- So does the reference. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Over the extended reals the two programs end with equal results. -/
theorem algebraic : Cert.algebraic_KernelIdeal_ReferenceIdeal := by
  intro m ρ m' ρ' hpre hagree
  refine ⟨fun c => Cert.KernelIdeal.Hand.V4 m c Cert.KernelIdeal.main_v6, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  have hr := (Cert.ReferenceIdeal.Read.val_main_v16_eq (F := Ideal) (m' ((c.tc : Thread _ _).loc Cert.ReferenceIdeal.main_arg0))
      (m' ((c.tc : Thread _ _).loc Cert.ReferenceIdeal.main_arg1)) (m' ((c.tc : Thread _ _).loc Cert.ReferenceIdeal.main_arg2))
      (m' ((c.tc : Thread _ _).loc Cert.ReferenceIdeal.main_arg3)) (m' ((c.tc : Thread _ _).loc Cert.ReferenceIdeal.main_arg4))).trans
    (Cert.ReferenceIdeal.RefValue.result_eq _ _ _ _ _)
  have hk := Cert.KernelIdeal.Hand.ker_value m c
  have hwq := Cert.PreRead.wq_range (F := Ideal) _ _ _ _ _ (hpre c)
  have e0 : (fun (t : Fin 8192) (k : Fin 4096) => m' ((c.tc : Thread _ _).loc Cert.ReferenceIdeal.main_arg0) (ValueIdx.ix2 t k))
      = fun t k => m ((c.tc : Thread _ _).loc Cert.KernelIdeal.main_arg0) (ValueIdx.ix2 t k) :=
    funext fun t => funext fun k => congrFun (hagree c).1 _
  have e1 : (fun (g : Fin 131072) (e : Fin 64) => m' ((c.tc : Thread _ _).loc Cert.ReferenceIdeal.main_arg1) (ValueIdx.ix2 g e))
      = fun g e => m ((c.tc : Thread _ _).loc Cert.KernelIdeal.main_arg1) (ValueIdx.ix2 g e) :=
    funext fun g => funext fun e => congrFun (hagree c).2.1 _
  have e2 : (fun (g : Fin 262144) => m' ((c.tc : Thread _ _).loc Cert.ReferenceIdeal.main_arg2) (ValueIdx.ix2 g 0))
      = fun g => m ((c.tc : Thread _ _).loc Cert.KernelIdeal.main_arg2) (ValueIdx.ix2 g 0) :=
    funext fun g => congrFun (hagree c).2.2.1 _
  have e3 : (fun (g : Fin 262144) => m' ((c.tc : Thread _ _).loc Cert.ReferenceIdeal.main_arg3) (ValueIdx.ix2 g 0))
      = fun g => m ((c.tc : Thread _ _).loc Cert.KernelIdeal.main_arg3) (ValueIdx.ix2 g 0) :=
    funext fun g => congrFun (hagree c).2.2.2.1 _
  have e4 : (fun (o : Fin 4096) => m' ((c.tc : Thread _ _).loc Cert.ReferenceIdeal.main_arg4) (ValueIdx.ix1 o))
      = fun o => m ((c.tc : Thread _ _).loc Cert.KernelIdeal.main_arg4) (ValueIdx.ix1 o) :=
    funext fun o => congrFun (hagree c).2.2.2.2 _
  have hfun := Spec.out_nibK_eq_nibR (fun t k => m ((c.tc : Thread _ _).loc Cert.KernelIdeal.main_arg0) (ValueIdx.ix2 t k))
    (fun g e => m ((c.tc : Thread _ _).loc Cert.KernelIdeal.main_arg1) (ValueIdx.ix2 g e))
    (fun g => m ((c.tc : Thread _ _).loc Cert.KernelIdeal.main_arg2) (ValueIdx.ix2 g 0))
    (fun g => m ((c.tc : Thread _ _).loc Cert.KernelIdeal.main_arg3) (ValueIdx.ix2 g 0))
    (fun o => m ((c.tc : Thread _ _).loc Cert.KernelIdeal.main_arg4) (ValueIdx.ix1 o))
    (fun g e => hwq (ValueIdx.ix2 g e))
  have hargs : Spec.out Spec.nibR (fun t k => m' ((c.tc : Thread _ _).loc Cert.ReferenceIdeal.main_arg0) (ValueIdx.ix2 t k))
        (fun g e => m' ((c.tc : Thread _ _).loc Cert.ReferenceIdeal.main_arg1) (ValueIdx.ix2 g e))
        (fun g => m' ((c.tc : Thread _ _).loc Cert.ReferenceIdeal.main_arg2) (ValueIdx.ix2 g 0))
        (fun g => m' ((c.tc : Thread _ _).loc Cert.ReferenceIdeal.main_arg3) (ValueIdx.ix2 g 0))
        (fun o => m' ((c.tc : Thread _ _).loc Cert.ReferenceIdeal.main_arg4) (ValueIdx.ix1 o))
      = Spec.out Spec.nibR (fun t k => m ((c.tc : Thread _ _).loc Cert.KernelIdeal.main_arg0) (ValueIdx.ix2 t k))
        (fun g e => m ((c.tc : Thread _ _).loc Cert.KernelIdeal.main_arg1) (ValueIdx.ix2 g e))
        (fun g => m ((c.tc : Thread _ _).loc Cert.KernelIdeal.main_arg2) (ValueIdx.ix2 g 0))
        (fun g => m ((c.tc : Thread _ _).loc Cert.KernelIdeal.main_arg3) (ValueIdx.ix2 g 0))
        (fun o => m ((c.tc : Thread _ _).loc Cert.KernelIdeal.main_arg4) (ValueIdx.ix1 o)) := by
    rw [e0, e1, e2, e3, e4]
  refine hr.trans (Eq.trans ?_ hk.symm)
  funext i
  exact congrFun (congrFun (hargs.trans hfun.symm) (i 0)) (i 1)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
